-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192 : Shape := ⟨1, ![8192]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024, .f32⟩
  | .local _ .vmem, ⟨5, _⟩ => ⟨S1024, .f32⟩
  | .local _ .vmem, ⟨6, _⟩ => ⟨S1024x1, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024, .f32⟩
  | .local _ .vmem, ⟨12, _⟩ => ⟨S1024, .f32⟩
  | .local _ .vmem, ⟨13, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_13 : BitVec 32 := 0#32
  let v34 : BitVec 1 := Scalar.cmpi .ne v33 c0_i32_13
  v34

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  transposes_S1024x256_p1_0_S256x1024 : S1024x256.Transposes [1, 0] S256x1024
  reduces_S1024x256_S1024 : S1024x256.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024x1_S1024 : S1024x1.ShapeCasts S1024
  inb_S1024_S1024_0 : ∀ a, (![0] : Fin 1 → Nat) a + S1024.size a ≤ S1024.size a
  h_S1024 : 0 < S1024.numel
  reducesTo_S8192_S_d0 : S8192.ReducesTo [0] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S8192.size a
  hwx1_2 : ∀ i : grid1.Coords, EltTy.bits .f32 = 32 ∨ (Rect.block (s := S8192) S1024.size (cc1_transform_2 i) (hinb1_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  reducesTo_S8192x8192_S8192_d0 : S8192x8192.ReducesTo [0] S8192
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.KBody0.lean ====
/-
  One call of the nearest-neighbour kernel on its 8 x 8 grid, at any entry contents V of the core's buffers.

  Grid point t = 8 i + j holds query tile i and other tile j. The body keeps a running minimum in a one-column
  scratch: at j = 0 it resets the scratch to +∞, at every j it lowers it by the tile's minima, and at j = 7 it
  writes the scratch out as block i of the result. So what the scratch holds after point t is a recursion on t
  (scr0): the update of +∞ at j = 0, else the update of what the point before left. The result window is idle at
  j < 7 and is written whole at j = 7. This module states those contents, runs the body in its three control
  cases (reset; neither; write-out), and proves the body obligation at every grid point for proof data that name
  them.
-/
import proofs.«169933_j52072183497482_1_alg».proof.Proof.Gen.Kernel.Launch
import proofs.«169933_j52072183497482_1_alg».proof.Proof.Gen.Kernel.Skeleton
import proofs.«169933_j52072183497482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Nn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, over the grid -/

/-- The reset branch is taken: the other-tile coordinate j is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The write-out branch is taken: j is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The two input windows are never idle; the result window is idle and not written back exactly where the
    write-out branch is not taken. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem live0_2 : ∀ t : Fin cfg0.N, cond0_1 (grid0.coords t) → cfg0.idle 2 (grid0.coords t) = false := by decide +kernel

/-! ## The body in its three control cases, on any whole staging memrefs -/

theorem zero2 : (![0, 0] : Fin 2 → Nat) = fun _ => 0 := by funext a; fin_cases a <;> rfl
theorem zero1 : (![0] : Fin 1 → Nat) = fun _ => 0 := by funext a; fin_cases a; rfl

set_option maxHeartbeats 1000000 in
/-- j = 0: the scratch, whatever it held, ends at the update of +∞; the result window's buffer is handed back as
    found. -/
theorem run0_reset (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S1024x1 .f32) (harg5 : arg5.IsWhole)
    (hc0 : cond0_0 i) (hc1 : ¬cond0_1 i)
    (x0 x1 : Vec F S1024x256 .f32) (xi : Vec F S1024 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 (k0_pay1 (F := F)))) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (fun y => ⟨_, List.mem_cons_self, View.mem_set_unit_zero zero2 inb_S1024x1_S1024x1_0_0 y⟩)]
  sl_unfold_words
  rw [View.canon_cons_unit_zero (S := S1024x1) zero2]
  simp only [View.readAt_eq_ld, harg2.read_unread, harg3.read_unread, View.ld_unit_zero (S := S1024x256) zero2, View.readCov_unit_zero (S := S1024x1) _ zero2]

set_option maxHeartbeats 1000000 in
/-- 0 < j < 7: the scratch at s ends at the update of s; the result window's buffer is handed back as found. -/
theorem run0_step (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S1024x1 .f32) (harg5 : arg5.IsWhole)
    (hc0 : ¬cond0_0 i) (hc1 : ¬cond0_1 i)
    (x0 x1 : Vec F S1024x256 .f32) (xi : Vec F S1024 .f32) (s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare s
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 s)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (fun y => ⟨_, List.mem_cons_self, View.mem_set_unit_zero zero2 inb_S1024x1_S1024x1_0_0 y⟩)]
  sl_unfold_words
  rw [View.canon_cons_unit_zero (S := S1024x1) zero2]
  simp only [View.readAt_eq_ld, harg2.read_unread, harg3.read_unread, harg5.read_unread, View.ld_unit_zero (S := S1024x256) zero2, View.ld_unit_zero (S := S1024x1) zero2, View.readCov_unit_zero (S := S1024x1) _ zero2]

set_option maxHeartbeats 1000000 in
/-- j = 7: the scratch at s ends at the update of s, and the result window's buffer, whatever it held, ends at that
    update seen as a vector. -/
theorem run0_out (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S1024x1 .f32) (harg5 : arg5.IsWhole)
    (hc0 : ¬cond0_0 i) (hc1 : cond0_1 i)
    (x0 x1 : Vec F S1024x256 .f32) (s : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (k0_pay3 (k0_pay2 x0 x1 s)) ∗ owns (c : Thread nD τ) arg5 fullShare (k0_pay2 x0 x1 s)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero zero1 inb_S1024_S1024_0 y⟩)]
    sl_unfold_words
    rw [View.canon_cons_unit_zero (S := S1024) zero1]
    simp only [View.readAt_eq_ld, harg2.read_unread, harg3.read_unread, harg5.read_unread, View.ld_unit_zero (S := S1024x256) zero2, View.ld_unit_zero (S := S1024x1) zero2, View.readCov_unit_zero (S := S1024x1) _ zero2]
  iexists _; isplitr
  swap; · iexact HS0
  ipureintro
  sl_unfold_words
  rw [View.read_writes_eq_canon _ _ _ (fun y => ⟨_, List.mem_cons_self, View.mem_set_unit_zero zero2 inb_S1024x1_S1024x1_0_0 y⟩)]
  sl_unfold_words
  rw [View.canon_cons_unit_zero (S := S1024x1) zero2]
  simp only [View.readAt_eq_ld, harg2.read_unread, harg3.read_unread, harg5.read_unread, View.ld_unit_zero (S := S1024x256) zero2, View.ld_unit_zero (S := S1024x1) zero2, View.readCov_unit_zero (S := S1024x1) _ zero2]

end Cert.Kernel.Nn

end
-- ==== Proof.KData0.lean ====
/-
  The proof data of one call of the nearest-neighbour kernel, and its body obligation at every grid point.

  V is what the core's buffers hold when the call is entered. Grid point t = 8 i + j stages block i of the first
  operand and block j of the second. After point t the one-column scratch holds scr0 t: the update, by the two blocks
  of t, of +∞ when j = 0 and of scr0 (t - 1) otherwise; the result window's buffer holds that as a vector where the
  point writes it out (j = 7) and is handed back untouched elsewhere. Between points the invariant keeps the scratch
  at scr0 of the point before (before the first point, at anything), the other scoped buffers at anything and the
  generator register at some state.
-/
import proofs.«169933_j52072183497482_1_alg».proof.Proof.KBody0

set_option maxRecDepth 16384

noncomputable section

namespace Cert.Kernel.Nn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running minimum after each point -/

/-- The two input blocks of point t at their literal type. -/
abbrev blkP0 (c : Dev nD) (t : Fin cfg0.N) : Vec F S1024x256 .f32 := iblk0 V c 0 t
abbrev blkO0 (c : Dev nD) (t : Fin cfg0.N) : Vec F S1024x256 .f32 := iblk0 V c 1 t

/-- What the scratch holds after the body at position n. -/
def scr0 (c : Dev nD) : (n : ℕ) → n < cfg0.N → Vec F S1024x1 .f32
  | 0, hn => k0_pay2 (blkP0 V c ⟨0, hn⟩) (blkO0 V c ⟨0, hn⟩) (k0_pay1 (F := F))
  | n + 1, hn => k0_pay2 (blkP0 V c ⟨n + 1, hn⟩) (blkO0 V c ⟨n + 1, hn⟩)
      (if (n + 1) % 8 = 0 then (k0_pay1 (F := F)) else scr0 c n (Nat.lt_of_succ_lt hn))

/-- At a point with j = 0: the update of +∞. -/
theorem scr0_reset (c : Dev nD) (t : Fin cfg0.N) (h0 : t.val % 8 = 0) :
    scr0 V c t.val t.isLt = k0_pay2 (blkP0 V c t) (blkO0 V c t) (k0_pay1 (F := F)) := by
  obtain ⟨n, hn⟩ := t
  cases n with
  | zero => rfl
  | succ n => exact congrArg (k0_pay2 _ _) (if_pos h0)

/-- At a point with j > 0: the update of what the point before left. -/
theorem scr0_step (c : Dev nD) (t : Fin cfg0.N) (h0 : ¬t.val % 8 = 0) :
    scr0 V c t.val t.isLt = k0_pay2 (blkP0 V c t) (blkO0 V c t)
      (scr0 V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

/-! ## The invariant between points -/

/-- The scratch of this call, a whole scoped buffer of its own. -/
abbrev scM0 : Memref sig .tc .vmem S1024x1 .f32 := Memref.whole cc0_scratch0

/-- The scoped buffers that are neither this call's staging buffers nor its scratch, at anything. -/
abbrev rest0 (c : Dev nD) : sProp 𝕄 :=
  Pipeline.scopedRestBut (Ix := Unit) (Name := ℕ) (U := UR sig nD τ) (Lvl := ℕ) (Val := Elt F) spec0 c [cc0_scratch0]

/-- What the call is handed and gives back: the scratch at anything, those other buffers, the generator register. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 c) := by
  rw [Pipeline.scopedRest_split_of_list spec0 c [cc0_scratch0] (by decide) (by decide)]
  simp only [BI.bigSepL_singleton, scM0, owns_whole]
  try rfl
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA
  rw [scoped0_eq]

/-- The invariant before position n: before the first point what the call was handed; afterwards the scratch at what
    the point before left. -/
def PhiS0 (c : Dev nD) : (n : ℕ) → n ≤ cfg0.N → sProp 𝕄
  | 0, _ => Pipeline.ΦA spec0 c
  | n + 1, hn => iprop((owns (c : Thread nD τ) scM0 fullShare (scr0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (scr0 V c n hn) ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare (scr0 V c (n - 1) (by omega)) ∗ rest0 c) ∗ (∃ r, prngReg c r)) := by
  cases n with
  | zero => exact absurd rfl hz
  | succ n => rfl

/-! ## The proof data -/

/-- The arrays as the call finds them; after the body at point t each input's buffer at its block and the result's at
    the running minimum as a vector; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (scr0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (scr0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the remainder of t by 8 says which control case the
    point is in; the invariant hands the body the scratch (at anything before the first point, at what the point
    before left otherwise) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  by_cases h1 : t.val % 8 = 7
  · have h0 : ¬t.val % 8 = 0 := by omega
    have hz : t.val ≠ 0 := by omega
    rw [show (dat0 V c).leavesExact 2 t = owns (c : Thread nD τ) (st0_2 t) fullShare ((dat0 V c).after 2 t) from by
      unfold Dat.leavesExact; rw [live0_2 t ((hcond0_1 t).mpr h1)], after0_2]
    rw [scr0_step V c t h0, PhiS0_castSucc V c t, PhiS0_pos V c _ _ hz]
    iintro ⟨⟨⟨HS, Hr⟩, Hg⟩, Ho, ⟨%d0, H0⟩, ⟨%d1, H1⟩, ⟨%d2, H2⟩⟩
    iapply (run0_out c (grid0.coords t) _ _ _ _ _ _ scM0 (Memref.isWhole_whole _) (fun h => h0 ((hcond0_0 t).mp h)) ((hcond0_1 t).mpr h1)
      (blkP0 V c t) (blkO0 V c t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat0 V c) 2 t (idle0_2 t (fun h => h1 ((hcond0_1 t).mp h))) (noFlush0_2 t (fun h => h1 ((hcond0_1 t).mp h)))]
    by_cases h0 : t.val % 8 = 0
    · rw [scr0_reset V c t h0]
      have hrun := fun (xi : Vec F S1024 .f32) (K : PUnit → sProp 𝕄) => run0_reset c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) scM0 (Memref.isWhole_whole _) ((hcond0_0 t).mpr h0) (fun h => h1 ((hcond0_1 t).mp h))
        (blkP0 V c t) (blkO0 V c t) xi Set.univ K
      by_cases hz : t.val = 0
      · rw [PhiS0_castSucc V c t, PhiS0_zero V c _ _ hz, PhiA0_eq]
        iintro ⟨⟨⟨HS, Hr⟩, Hg⟩, Ho, ⟨%d0, H0⟩, ⟨%d1, H1⟩, ⟨%d2, H2⟩⟩
        iapply (hrun _ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, Hr⟩, Hg⟩, Ho, ⟨%d0, H0⟩, ⟨%d1, H1⟩, ⟨%d2, H2⟩⟩
        iapply (hrun _ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · have hz : t.val ≠ 0 := fun h => h0 (by rw [h])
      rw [scr0_step V c t h0, PhiS0_castSucc V c t, PhiS0_pos V c _ _ hz]
      iintro ⟨⟨⟨HS, Hr⟩, Hg⟩, Ho, ⟨%d0, H0⟩, ⟨%d1, H1⟩, ⟨%d2, H2⟩⟩
      iapply (run0_step c (grid0.coords t) _ _ _ _ _ _ scM0 (Memref.isWhole_whole _) (fun h => h0 ((hcond0_0 t).mp h)) (fun h => h1 ((hcond0_1 t).mp h))
        (blkP0 V c t) (blkO0 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is handed is the invariant before the first point; after the last point the invariant gives it back,
    the scratch's contents forgotten. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, Hr⟩, Hg⟩
  isplitl [HS Hr]
  · isplitl [HS]; · iexists _; iexact HS
    iexact Hr
  iexact Hg

/-- The same two, in the shape the call's record asks: handed the generator register, anything droppable and the scoped
    rest; giving back the generator register, nothing for semaphores of its own (it has none) and the scoped rest. -/
theorem hinR0 (c : Dev nD) (P : sProp 𝕄) :
    iprop((∃ r, prngReg c r) ∗ P ∗ Pipeline.scopedRest (Ix := Unit) (Name := ℕ) (U := UR sig nD τ) (Lvl := ℕ) (Val := Elt F) spec0 c) ⊢ (dat0 V c).Φ 0 := by
  rw [show (dat0 V c).Φ 0 = PhiS0 V c 0 (Nat.zero_le _) from rfl, PhiS0_zero V c 0 _ rfl]
  unfold Pipeline.ΦA
  iintro ⟨Hp, -, Hr⟩
  isplitl [Hr]; · iexact Hr
  iexact Hp
theorem houtR0 (c : Dev nD) :
    (dat0 V c).Φ (Fin.last cfg0.N) ⊢ iprop((∃ r, prngReg c r) ∗ BI.emp ∗ Pipeline.scopedRest (Ix := Unit) (Name := ℕ) (U := UR sig nD τ) (Lvl := ℕ) (Val := Elt F) spec0 c) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega)]
  rw [scoped0_eq]
  iintro ⟨⟨HS, Hr⟩, Hg⟩
  isplitl [Hg]; · iexact Hg
  isplitr; · iempintro
  isplitl [HS]; · iexists _; iexact HS
  iexact Hr

end Cert.Kernel.Nn

end
-- ==== Proof.KBody1.lean ====
/-
  One call of the nearest-neighbour kernel on its 8 x 8 grid, at any entry contents V of the core's buffers.

  Grid point t = 8 i + j holds query tile i and other tile j. The body keeps a running minimum in a one-column
  scratch: at j = 0 it resets the scratch to +∞, at every j it lowers it by the tile's minima, and at j = 7 it
  writes the scratch out as block i of the result. So what the scratch holds after point t is a recursion on t
  (scr1): the update of +∞ at j = 0, else the update of what the point before left. The result window is idle at
  j < 7 and is written whole at j = 7. This module states those contents, runs the body in its three control
  cases (reset; neither; write-out), and proves the body obligation at every grid point for proof data that name
  them.
-/
import proofs.«169933_j52072183497482_1_alg».proof.Proof.Gen.Kernel.Launch
import proofs.«169933_j52072183497482_1_alg».proof.Proof.Gen.Kernel.Skeleton
import proofs.«169933_j52072183497482_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Nn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, over the grid -/

/-- The reset branch is taken: the other-tile coordinate j is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The write-out branch is taken: j is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The two input windows are never idle; the result window is idle and not written back exactly where the
    write-out branch is not taken. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem live1_2 : ∀ t : Fin cfg1.N, cond1_1 (grid1.coords t) → cfg1.idle 2 (grid1.coords t) = false := by decide +kernel

/-! ## The body in its three control cases, on any whole staging memrefs -/

theorem zero2 : (![0, 0] : Fin 2 → Nat) = fun _ => 0 := by funext a; fin_cases a <;> rfl
theorem zero1 : (![0] : Fin 1 → Nat) = fun _ => 0 := by funext a; fin_cases a; rfl

set_option maxHeartbeats 1000000 in
/-- j = 0: the scratch, whatever it held, ends at the update of +∞; the result window's buffer is handed back as
    found. -/
theorem run1_reset (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S1024x1 .f32) (harg5 : arg5.IsWhole)
    (hc0 : cond1_0 i) (hc1 : ¬cond1_1 i)
    (x0 x1 : Vec F S1024x256 .f32) (xi : Vec F S1024 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 (k1_pay1 (F := F)))) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (fun y => ⟨_, List.mem_cons_self, View.mem_set_unit_zero zero2 inb_S1024x1_S1024x1_0_0 y⟩)]
  sl_unfold_words
  rw [View.canon_cons_unit_zero (S := S1024x1) zero2]
  simp only [View.readAt_eq_ld, harg2.read_unread, harg3.read_unread, View.ld_unit_zero (S := S1024x256) zero2, View.readCov_unit_zero (S := S1024x1) _ zero2]

set_option maxHeartbeats 1000000 in
/-- 0 < j < 7: the scratch at s ends at the update of s; the result window's buffer is handed back as found. -/
theorem run1_step (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S1024x1 .f32) (harg5 : arg5.IsWhole)
    (hc0 : ¬cond1_0 i) (hc1 : ¬cond1_1 i)
    (x0 x1 : Vec F S1024x256 .f32) (xi : Vec F S1024 .f32) (s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare s
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 s)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (fun y => ⟨_, List.mem_cons_self, View.mem_set_unit_zero zero2 inb_S1024x1_S1024x1_0_0 y⟩)]
  sl_unfold_words
  rw [View.canon_cons_unit_zero (S := S1024x1) zero2]
  simp only [View.readAt_eq_ld, harg2.read_unread, harg3.read_unread, harg5.read_unread, View.ld_unit_zero (S := S1024x256) zero2, View.ld_unit_zero (S := S1024x1) zero2, View.readCov_unit_zero (S := S1024x1) _ zero2]

set_option maxHeartbeats 1000000 in
/-- j = 7: the scratch at s ends at the update of s, and the result window's buffer, whatever it held, ends at that
    update seen as a vector. -/
theorem run1_out (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S1024x1 .f32) (harg5 : arg5.IsWhole)
    (hc0 : ¬cond1_0 i) (hc1 : cond1_1 i)
    (x0 x1 : Vec F S1024x256 .f32) (s : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (k1_pay3 (k1_pay2 x0 x1 s)) ∗ owns (c : Thread nD τ) arg5 fullShare (k1_pay2 x0 x1 s)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero zero1 inb_S1024_S1024_0 y⟩)]
    sl_unfold_words
    rw [View.canon_cons_unit_zero (S := S1024) zero1]
    simp only [View.readAt_eq_ld, harg2.read_unread, harg3.read_unread, harg5.read_unread, View.ld_unit_zero (S := S1024x256) zero2, View.ld_unit_zero (S := S1024x1) zero2, View.readCov_unit_zero (S := S1024x1) _ zero2]
  iexists _; isplitr
  swap; · iexact HS0
  ipureintro
  sl_unfold_words
  rw [View.read_writes_eq_canon _ _ _ (fun y => ⟨_, List.mem_cons_self, View.mem_set_unit_zero zero2 inb_S1024x1_S1024x1_0_0 y⟩)]
  sl_unfold_words
  rw [View.canon_cons_unit_zero (S := S1024x1) zero2]
  simp only [View.readAt_eq_ld, harg2.read_unread, harg3.read_unread, harg5.read_unread, View.ld_unit_zero (S := S1024x256) zero2, View.ld_unit_zero (S := S1024x1) zero2, View.readCov_unit_zero (S := S1024x1) _ zero2]

end Cert.Kernel.Nn

end
-- ==== Proof.KData1.lean ====
/-
  The proof data of one call of the nearest-neighbour kernel, and its body obligation at every grid point.

  V is what the core's buffers hold when the call is entered. Grid point t = 8 i + j stages block i of the first
  operand and block j of the second. After point t the one-column scratch holds scr1 t: the update, by the two blocks
  of t, of +∞ when j = 0 and of scr1 (t - 1) otherwise; the result window's buffer holds that as a vector where the
  point writes it out (j = 7) and is handed back untouched elsewhere. Between points the invariant keeps the scratch
  at scr1 of the point before (before the first point, at anything), the other scoped buffers at anything and the
  generator register at some state.
-/
import proofs.«169933_j52072183497482_1_alg».proof.Proof.KBody1

set_option maxRecDepth 16384

noncomputable section

namespace Cert.Kernel.Nn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running minimum after each point -/

/-- The two input blocks of point t at their literal type. -/
abbrev blkP1 (c : Dev nD) (t : Fin cfg1.N) : Vec F S1024x256 .f32 := iblk1 V c 0 t
abbrev blkO1 (c : Dev nD) (t : Fin cfg1.N) : Vec F S1024x256 .f32 := iblk1 V c 1 t

/-- What the scratch holds after the body at position n. -/
def scr1 (c : Dev nD) : (n : ℕ) → n < cfg1.N → Vec F S1024x1 .f32
  | 0, hn => k1_pay2 (blkP1 V c ⟨0, hn⟩) (blkO1 V c ⟨0, hn⟩) (k1_pay1 (F := F))
  | n + 1, hn => k1_pay2 (blkP1 V c ⟨n + 1, hn⟩) (blkO1 V c ⟨n + 1, hn⟩)
      (if (n + 1) % 8 = 0 then (k1_pay1 (F := F)) else scr1 c n (Nat.lt_of_succ_lt hn))

/-- At a point with j = 0: the update of +∞. -/
theorem scr1_reset (c : Dev nD) (t : Fin cfg1.N) (h0 : t.val % 8 = 0) :
    scr1 V c t.val t.isLt = k1_pay2 (blkP1 V c t) (blkO1 V c t) (k1_pay1 (F := F)) := by
  obtain ⟨n, hn⟩ := t
  cases n with
  | zero => rfl
  | succ n => exact congrArg (k1_pay2 _ _) (if_pos h0)

/-- At a point with j > 0: the update of what the point before left. -/
theorem scr1_step (c : Dev nD) (t : Fin cfg1.N) (h0 : ¬t.val % 8 = 0) :
    scr1 V c t.val t.isLt = k1_pay2 (blkP1 V c t) (blkO1 V c t)
      (scr1 V c (t.val - 1) (Nat.lt_of_le_of_lt (Nat.sub_le _ _) t.isLt)) := by
  obtain ⟨n, hn⟩ := t
  cases n with
  | zero => exact absurd (Nat.zero_mod _) h0
  | succ n => exact congrArg (k1_pay2 _ _) (if_neg h0)

/-! ## The invariant between points -/

/-- The scratch of this call, a whole scoped buffer of its own. -/
abbrev scM1 : Memref sig .tc .vmem S1024x1 .f32 := Memref.whole cc1_scratch0

/-- The scoped buffers that are neither this call's staging buffers nor its scratch, at anything. -/
abbrev rest1 (c : Dev nD) : sProp 𝕄 :=
  Pipeline.scopedRestBut (Ix := Unit) (Name := ℕ) (U := UR sig nD τ) (Lvl := ℕ) (Val := Elt F) spec1 c [cc1_scratch0]

/-- What the call is handed and gives back: the scratch at anything, those other buffers, the generator register. -/
theorem scoped1_eq (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ rest1 c) := by
  rw [Pipeline.scopedRest_split_of_list spec1 c [cc1_scratch0] (by decide) (by decide)]
  simp only [BI.bigSepL_singleton, scM1, owns_whole]
  try rfl
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA
  rw [scoped1_eq]

/-- The invariant before position n: before the first point what the call was handed; afterwards the scratch at what
    the point before left. -/
def PhiS1 (c : Dev nD) : (n : ℕ) → n ≤ cfg1.N → sProp 𝕄
  | 0, _ => Pipeline.ΦA spec1 c
  | n + 1, hn => iprop((owns (c : Thread nD τ) scM1 fullShare (scr1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (scr1 V c n hn) ∗ rest1 c) ∗ (∃ r, prngReg c r)) := rfl
theorem PhiS1_pos (c : Dev nD) (n : ℕ) (h : n ≤ cfg1.N) (hz : n ≠ 0) :
    PhiS1 V c n h = iprop((owns (c : Thread nD τ) scM1 fullShare (scr1 V c (n - 1) (by omega)) ∗ rest1 c) ∗ (∃ r, prngReg c r)) := by
  cases n with
  | zero => exact absurd rfl hz
  | succ n => rfl

/-! ## The proof data -/

/-- The arrays as the call finds them; after the body at point t each input's buffer at its block and the result's at
    the running minimum as a vector; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (scr1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (scr1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the remainder of t by 8 says which control case the
    point is in; the invariant hands the body the scratch (at anything before the first point, at what the point
    before left otherwise) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  by_cases h1 : t.val % 8 = 7
  · have h0 : ¬t.val % 8 = 0 := by omega
    have hz : t.val ≠ 0 := by omega
    rw [show (dat1 V c).leavesExact 2 t = owns (c : Thread nD τ) (st1_2 t) fullShare ((dat1 V c).after 2 t) from by
      unfold Dat.leavesExact; rw [live1_2 t ((hcond1_1 t).mpr h1)], after1_2]
    rw [scr1_step V c t h0, PhiS1_castSucc V c t, PhiS1_pos V c _ _ hz]
    iintro ⟨⟨⟨HS, Hr⟩, Hg⟩, Ho, ⟨%d0, H0⟩, ⟨%d1, H1⟩, ⟨%d2, H2⟩⟩
    iapply (run1_out c (grid1.coords t) _ _ _ _ _ _ scM1 (Memref.isWhole_whole _) (fun h => h0 ((hcond1_0 t).mp h)) ((hcond1_1 t).mpr h1)
      (blkP1 V c t) (blkO1 V c t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat1 V c) 2 t (idle1_2 t (fun h => h1 ((hcond1_1 t).mp h))) (noFlush1_2 t (fun h => h1 ((hcond1_1 t).mp h)))]
    by_cases h0 : t.val % 8 = 0
    · rw [scr1_reset V c t h0]
      have hrun := fun (xi : Vec F S1024 .f32) (K : PUnit → sProp 𝕄) => run1_reset c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) scM1 (Memref.isWhole_whole _) ((hcond1_0 t).mpr h0) (fun h => h1 ((hcond1_1 t).mp h))
        (blkP1 V c t) (blkO1 V c t) xi Set.univ K
      by_cases hz : t.val = 0
      · rw [PhiS1_castSucc V c t, PhiS1_zero V c _ _ hz, PhiA1_eq]
        iintro ⟨⟨⟨HS, Hr⟩, Hg⟩, Ho, ⟨%d0, H0⟩, ⟨%d1, H1⟩, ⟨%d2, H2⟩⟩
        iapply (hrun _ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS, Hr⟩, Hg⟩, Ho, ⟨%d0, H0⟩, ⟨%d1, H1⟩, ⟨%d2, H2⟩⟩
        iapply (hrun _ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · have hz : t.val ≠ 0 := fun h => h0 (by rw [h])
      rw [scr1_step V c t h0, PhiS1_castSucc V c t, PhiS1_pos V c _ _ hz]
      iintro ⟨⟨⟨HS, Hr⟩, Hg⟩, Ho, ⟨%d0, H0⟩, ⟨%d1, H1⟩, ⟨%d2, H2⟩⟩
      iapply (run1_step c (grid1.coords t) _ _ _ _ _ _ scM1 (Memref.isWhole_whole _) (fun h => h0 ((hcond1_0 t).mp h)) (fun h => h1 ((hcond1_1 t).mp h))
        (blkP1 V c t) (blkO1 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is handed is the invariant before the first point; after the last point the invariant gives it back,
    the scratch's contents forgotten. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hr⟩, Hg⟩
  isplitl [HS Hr]
  · isplitl [HS]; · iexists _; iexact HS
    iexact Hr
  iexact Hg

/-- The same two, in the shape the call's record asks: handed the generator register, anything droppable and the scoped
    rest; giving back the generator register, nothing for semaphores of its own (it has none) and the scoped rest. -/
theorem hinR1 (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl]
  unfold Pipeline.ΦA
  iintro ⟨Hp, -, Hr⟩
  isplitl [Hr]; · iexact Hr
  iexact Hp
theorem houtR1 (c : Dev nD) :
    (dat1 V c).Φ (Fin.last cfg1.N) ⊢ iprop((∃ r, prngReg c r) ∗ BI.emp ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  rw [scoped1_eq]
  iintro ⟨⟨HS, Hr⟩, Hg⟩
  isplitl [Hg]; · iexact Hg
  isplitr; · iempintro
  isplitl [HS]; · iexists _; iexact HS
  iexact Hr

end Cert.Kernel.Nn

end
-- ==== Proof.KRun.lean ====
/-
  The whole program as three items in order: the first call of the nearest-neighbour kernel, the second call with the
  operands exchanged, and the host operations that average the two result vectors and add the averages.

  The core's buffers at each boundary are a fold from the launch memory: a call leaves its arrays at what its
  write-backs leave (the inputs as entered, the result block by block) and every other buffer as entered; the host
  stretch leaves what its operations compute. Every weakly fair execution terminates, and at the end every unscoped
  buffer holds the last boundary's contents. The frame claim and the value of the result are both read off that.
-/
import proofs.«169933_j52072183497482_1_alg».proof.Proof.KData0
import proofs.«169933_j52072183497482_1_alg».proof.Proof.KData1
import proofs.«169933_j52072183497482_1_alg».proof.Proof.Gen.Kernel.Regions

set_option maxRecDepth 16384

noncomputable section

namespace Cert.Kernel.Nn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 (c : Dev nD) : Valuation τ sig (Elt F) := fun b => m (c, b)
abbrev E0 : (c : Dev nD) → (b : Ref sig .tc) → Buf (Elt F) ((c : Thread nD τ).loc b) := fun c b => B0 m c b
/-- After the first call: its arrays at what the pipeline leaves, every other buffer as entered. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (dat0 (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the second call. -/
def B2 (c : Dev nD) : Valuation τ sig (Elt F) :=
  Pipeline.withArrays spec1 c (B1 m c) fun w => (dat1 (E1 m) c).arrAt w cfg1.N
theorem B2_arr (c : Dev nD) (w : Fin cfg1.W) :
    B2 m c (Proc.devRef .tc (Pipeline.arrRef spec1 w)) = (dat1 (E1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev E2 : (c : Dev nD) → (b : Ref sig .tc) → Buf (Elt F) ((c : Thread nD τ).loc b) := fun c b => B2 m c b
theorem hF1 (c : Dev nD) (w : Fin cfg1.W) : (dat1 (E1 m) c).arrAt w cfg1.N = E2 m c (Pipeline.arrRef spec1 w) :=
  (B2_arr m c w).symm
theorem hrest1 (c : Dev nD) : ∀ b, b ∉ Finset.univ.image (Pipeline.arrRef spec1) → E2 m c b = E1 m c b :=
  fun b hb => B2_of_ne m c b fun w e => hb (Finset.mem_image.mpr ⟨w, Finset.mem_univ _, e⟩)

/-- After the host operations. -/
abbrev B3 (c : Dev nD) : Valuation τ sig (Elt F) := StableHlo.after hostOps2 (B2 m c)

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (B3 m c) ∗ ∃ r, prngReg c r)

/-! ## The two calls as segments -/

set_option backward.isDefEq.respectTransparency.types false in
/-- The first call: entered from every unscoped buffer at the launch contents, left at B1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hinR0 (E0 m) c _
  hout c := by
    rw [Pipeline.ownSems0_none]
    exact houtR0 (E0 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from B1, left at B2. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hinR1 (E1 m) c _
  hout c := by
    rw [Pipeline.ownSems0_none]
    exact houtR1 (E1 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (B2 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tn m)
    (hch := ⟨fun _ => .rfl, fun _ => .rfl, fun _ => .rfl, fun c => by
      show iprop(StableHlo.held (c : Thread nD τ) (Pipeline.ucRefs τ sig) (B3 m c) ∗ R c) ⊢ iprop(Tn m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-! ## The last boundary read at the arguments and at the result -/

theorem B3_of (c : Dev nD) (r : Ref sig .tc) (h : r ∉ hostOps2_W) : B3 m c r = B2 m c r :=
  StableHlo.after_of_writes_sub hostOps2 _ hostOps2_writes h

/-- No item writes an argument: the first set is the first call's first operand and the second call's second, the
    second set the other way round. -/
theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of m c main_arg0 (by decide)
    _ = B1 m c (Proc.devRef .tc main_arg0) := (B2_arr m c 1).trans (((dat1 (E1 m) c).arrAt_in 1 rfl _).trans (A_eq1 (E1 m) c 1))
    _ = B0 m c (Proc.devRef .tc main_arg0) := (B1_arr m c 0).trans (((dat0 (E0 m) c).arrAt_in 0 rfl _).trans (A_eq0 (E0 m) c 0))
    _ = m ((c : Thread nD τ).loc main_arg0) := rfl
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of m c main_arg1 (by decide)
    _ = B1 m c (Proc.devRef .tc main_arg1) := (B2_arr m c 0).trans (((dat1 (E1 m) c).arrAt_in 0 rfl _).trans (A_eq1 (E1 m) c 0))
    _ = B0 m c (Proc.devRef .tc main_arg1) := (B1_arr m c 1).trans (((dat0 (E0 m) c).arrAt_in 1 rfl _).trans (A_eq0 (E0 m) c 1))
    _ = m ((c : Thread nD τ).loc main_arg1) := rfl

/-- The second call finds the arguments as launched. -/
theorem E1_main_arg0 (c : Dev nD) : E1 m c main_arg0 = m ((c : Thread nD τ).loc main_arg0) :=
  (B1_arr m c 0).trans (((dat0 (E0 m) c).arrAt_in 0 rfl _).trans (A_eq0 (E0 m) c 0))
theorem E1_main_arg1 (c : Dev nD) : E1 m c main_arg1 = m ((c : Thread nD τ).loc main_arg1) :=
  (B1_arr m c 1).trans (((dat0 (E0 m) c).arrAt_in 1 rfl _).trans (A_eq0 (E0 m) c 1))

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_main_arg0 m c),
     (h c _ (mem_uc main_arg1 (by decide))).trans (B3_main_arg1 m c)⟩) (run_all m ρ)

end Cert.Kernel.Nn

end
-- ==== Proof.KiBody0.lean ====
/-
  One call of the nearest-neighbour kernel on its 8 x 8 grid, at any entry contents V of the core's buffers.

  Grid point t = 8 i + j holds query tile i and other tile j. The body keeps a running minimum in a one-column
  scratch: at j = 0 it resets the scratch to +∞, at every j it lowers it by the tile's minima, and at j = 7 it
  writes the scratch out as block i of the result. So what the scratch holds after point t is a recursion on t
  (scr0): the update of +∞ at j = 0, else the update of what the point before left. The result window is idle at
  j < 7 and is written whole at j = 7. This module states those contents, runs the body in its three control
  cases (reset; neither; write-out), and proves the body obligation at every grid point for proof data that name
  them.
-/
import proofs.«169933_j52072183497482_1_alg».proof.Proof.Gen.KernelIdeal.Launch
import proofs.«169933_j52072183497482_1_alg».proof.Proof.Gen.KernelIdeal.Skeleton
import proofs.«169933_j52072183497482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Nn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, over the grid -/

/-- The reset branch is taken: the other-tile coordinate j is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The write-out branch is taken: j is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The two input windows are never idle; the result window is idle and not written back exactly where the
    write-out branch is not taken. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem live0_2 : ∀ t : Fin cfg0.N, cond0_1 (grid0.coords t) → cfg0.idle 2 (grid0.coords t) = false := by decide +kernel

/-! ## The body in its three control cases, on any whole staging memrefs -/

theorem zero2 : (![0, 0] : Fin 2 → Nat) = fun _ => 0 := by funext a; fin_cases a <;> rfl
theorem zero1 : (![0] : Fin 1 → Nat) = fun _ => 0 := by funext a; fin_cases a; rfl

set_option maxHeartbeats 1000000 in
/-- j = 0: the scratch, whatever it held, ends at the update of +∞; the result window's buffer is handed back as
    found. -/
theorem run0_reset (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S1024x1 .f32) (harg5 : arg5.IsWhole)
    (hc0 : cond0_0 i) (hc1 : ¬cond0_1 i)
    (x0 x1 : Vec F S1024x256 .f32) (xi : Vec F S1024 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 (k0_pay1 (F := F)))) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (fun y => ⟨_, List.mem_cons_self, View.mem_set_unit_zero zero2 inb_S1024x1_S1024x1_0_0 y⟩)]
  sl_unfold_words
  rw [View.canon_cons_unit_zero (S := S1024x1) zero2]
  simp only [View.readAt_eq_ld, harg2.read_unread, harg3.read_unread, View.ld_unit_zero (S := S1024x256) zero2, View.readCov_unit_zero (S := S1024x1) _ zero2]

set_option maxHeartbeats 1000000 in
/-- 0 < j < 7: the scratch at s ends at the update of s; the result window's buffer is handed back as found. -/
theorem run0_step (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S1024x1 .f32) (harg5 : arg5.IsWhole)
    (hc0 : ¬cond0_0 i) (hc1 : ¬cond0_1 i)
    (x0 x1 : Vec F S1024x256 .f32) (xi : Vec F S1024 .f32) (s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare s
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 s)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (fun y => ⟨_, List.mem_cons_self, View.mem_set_unit_zero zero2 inb_S1024x1_S1024x1_0_0 y⟩)]
  sl_unfold_words
  rw [View.canon_cons_unit_zero (S := S1024x1) zero2]
  simp only [View.readAt_eq_ld, harg2.read_unread, harg3.read_unread, harg5.read_unread, View.ld_unit_zero (S := S1024x256) zero2, View.ld_unit_zero (S := S1024x1) zero2, View.readCov_unit_zero (S := S1024x1) _ zero2]

set_option maxHeartbeats 1000000 in
/-- j = 7: the scratch at s ends at the update of s, and the result window's buffer, whatever it held, ends at that
    update seen as a vector. -/
theorem run0_out (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S1024x1 .f32) (harg5 : arg5.IsWhole)
    (hc0 : ¬cond0_0 i) (hc1 : cond0_1 i)
    (x0 x1 : Vec F S1024x256 .f32) (s : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (k0_pay3 (k0_pay2 x0 x1 s)) ∗ owns (c : Thread nD τ) arg5 fullShare (k0_pay2 x0 x1 s)) -∗ K ⟨⟩))
      ⊢ wp frame (wpE (defs₀ (F := F)) Variants.none c none) E (cc0__nn_min_kernel i arg2 harg2 arg3 harg3 arg4 harg4 arg5 harg5) K := by
  simp only [cc0__nn_min_kernel_eq_skeleton]; unfold cc0__nn_min_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero zero1 inb_S1024_S1024_0 y⟩)]
    sl_unfold_words
    rw [View.canon_cons_unit_zero (S := S1024) zero1]
    simp only [View.readAt_eq_ld, harg2.read_unread, harg3.read_unread, harg5.read_unread, View.ld_unit_zero (S := S1024x256) zero2, View.ld_unit_zero (S := S1024x1) zero2, View.readCov_unit_zero (S := S1024x1) _ zero2]
  iexists _; isplitr
  swap; · iexact HS0
  ipureintro
  sl_unfold_words
  rw [View.read_writes_eq_canon _ _ _ (fun y => ⟨_, List.mem_cons_self, View.mem_set_unit_zero zero2 inb_S1024x1_S1024x1_0_0 y⟩)]
  sl_unfold_words
  rw [View.canon_cons_unit_zero (S := S1024x1) zero2]
  simp only [View.readAt_eq_ld, harg2.read_unread, harg3.read_unread, harg5.read_unread, View.ld_unit_zero (S := S1024x256) zero2, View.ld_unit_zero (S := S1024x1) zero2, View.readCov_unit_zero (S := S1024x1) _ zero2]

end Cert.KernelIdeal.Nn

end
-- ==== Proof.KiData0.lean ====
/-
  The proof data of one call of the nearest-neighbour kernel, and its body obligation at every grid point.

  V is what the core's buffers hold when the call is entered. Grid point t = 8 i + j stages block i of the first
  operand and block j of the second. After point t the one-column scratch holds scr0 t: the update, by the two blocks
  of t, of +∞ when j = 0 and of scr0 (t - 1) otherwise; the result window's buffer holds that as a vector where the
  point writes it out (j = 7) and is handed back untouched elsewhere. Between points the invariant keeps the scratch
  at scr0 of the point before (before the first point, at anything), the other scoped buffers at anything and the
  generator register at some state.
-/
import proofs.«169933_j52072183497482_1_alg».proof.Proof.KiBody0

set_option maxRecDepth 16384

noncomputable section

namespace Cert.KernelIdeal.Nn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running minimum after each point -/

/-- The two input blocks of point t at their literal type. -/
abbrev blkP0 (c : Dev nD) (t : Fin cfg0.N) : Vec F S1024x256 .f32 := iblk0 V c 0 t
abbrev blkO0 (c : Dev nD) (t : Fin cfg0.N) : Vec F S1024x256 .f32 := iblk0 V c 1 t

/-- What the scratch holds after the body at position n. -/
def scr0 (c : Dev nD) : (n : ℕ) → n < cfg0.N → Vec F S1024x1 .f32
  | 0, hn => k0_pay2 (blkP0 V c ⟨0, hn⟩) (blkO0 V c ⟨0, hn⟩) (k0_pay1 (F := F))
  | n + 1, hn => k0_pay2 (blkP0 V c ⟨n + 1, hn⟩) (blkO0 V c ⟨n + 1, hn⟩)
      (if (n + 1) % 8 = 0 then (k0_pay1 (F := F)) else scr0 c n (Nat.lt_of_succ_lt hn))

/-- At a point with j = 0: the update of +∞. -/
theorem scr0_reset (c : Dev nD) (t : Fin cfg0.N) (h0 : t.val % 8 = 0) :
    scr0 V c t.val t.isLt = k0_pay2 (blkP0 V c t) (blkO0 V c t) (k0_pay1 (F := F)) := by
  obtain ⟨n, hn⟩ := t
  cases n with
  | zero => rfl
  | succ n => exact congrArg (k0_pay2 _ _) (if_pos h0)

/-- At a point with j > 0: the update of what the point before left. -/
theorem scr0_step (c : Dev nD) (t : Fin cfg0.N) (h0 : ¬t.val % 8 = 0) :
    scr0 V c t.val t.isLt = k0_pay2 (blkP0 V c t) (blkO0 V c t)
      (scr0 V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

/-! ## The invariant between points -/

/-- The scratch of this call, a whole scoped buffer of its own. -/
abbrev scM0 : Memref sig .tc .vmem S1024x1 .f32 := Memref.whole cc0_scratch0

/-- The scoped buffers that are neither this call's staging buffers nor its scratch, at anything. -/
abbrev rest0 (c : Dev nD) : sProp 𝕄 :=
  Pipeline.scopedRestBut (Ix := Unit) (Name := ℕ) (U := UR sig nD τ) (Lvl := ℕ) (Val := Elt F) spec0 c [cc0_scratch0]

/-- What the call is handed and gives back: the scratch at anything, those other buffers, the generator register. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 c) := by
  rw [Pipeline.scopedRest_split_of_list spec0 c [cc0_scratch0] (by decide) (by decide)]
  simp only [BI.bigSepL_singleton, scM0, owns_whole]
  try rfl
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA
  rw [scoped0_eq]

/-- The invariant before position n: before the first point what the call was handed; afterwards the scratch at what
    the point before left. -/
def PhiS0 (c : Dev nD) : (n : ℕ) → n ≤ cfg0.N → sProp 𝕄
  | 0, _ => Pipeline.ΦA spec0 c
  | n + 1, hn => iprop((owns (c : Thread nD τ) scM0 fullShare (scr0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (scr0 V c n hn) ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare (scr0 V c (n - 1) (by omega)) ∗ rest0 c) ∗ (∃ r, prngReg c r)) := by
  cases n with
  | zero => exact absurd rfl hz
  | succ n => rfl

/-! ## The proof data -/

/-- The arrays as the call finds them; after the body at point t each input's buffer at its block and the result's at
    the running minimum as a vector; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (scr0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (scr0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the remainder of t by 8 says which control case the
    point is in; the invariant hands the body the scratch (at anything before the first point, at what the point
    before left otherwise) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  by_cases h1 : t.val % 8 = 7
  · have h0 : ¬t.val % 8 = 0 := by omega
    have hz : t.val ≠ 0 := by omega
    rw [show (dat0 V c).leavesExact 2 t = owns (c : Thread nD τ) (st0_2 t) fullShare ((dat0 V c).after 2 t) from by
      unfold Dat.leavesExact; rw [live0_2 t ((hcond0_1 t).mpr h1)], after0_2]
    rw [scr0_step V c t h0, PhiS0_castSucc V c t, PhiS0_pos V c _ _ hz]
    iintro ⟨⟨⟨HS, Hr⟩, Hg⟩, Ho, ⟨%d0, H0⟩, ⟨%d1, H1⟩, ⟨%d2, H2⟩⟩
    iapply (run0_out c (grid0.coords t) _ _ _ _ _ _ scM0 (Memref.isWhole_whole _) (fun h => h0 ((hcond0_0 t).mp h)) ((hcond0_1 t).mpr h1)
      (blkP0 V c t) (blkO0 V c t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat0 V c) 2 t (idle0_2 t (fun h => h1 ((hcond0_1 t).mp h))) (noFlush0_2 t (fun h => h1 ((hcond0_1 t).mp h)))]
    by_cases h0 : t.val % 8 = 0
    · rw [scr0_reset V c t h0]
      have hrun := fun (xi : Vec F S1024 .f32) (K : PUnit → sProp 𝕄) => run0_reset c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) scM0 (Memref.isWhole_whole _) ((hcond0_0 t).mpr h0) (fun h => h1 ((hcond0_1 t).mp h))
        (blkP0 V c t) (blkO0 V c t) xi Set.univ K
      by_cases hz : t.val = 0
      · rw [PhiS0_castSucc V c t, PhiS0_zero V c _ _ hz, PhiA0_eq]
        iintro ⟨⟨⟨HS, Hr⟩, Hg⟩, Ho, ⟨%d0, H0⟩, ⟨%d1, H1⟩, ⟨%d2, H2⟩⟩
        iapply (hrun _ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, Hr⟩, Hg⟩, Ho, ⟨%d0, H0⟩, ⟨%d1, H1⟩, ⟨%d2, H2⟩⟩
        iapply (hrun _ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · have hz : t.val ≠ 0 := fun h => h0 (by rw [h])
      rw [scr0_step V c t h0, PhiS0_castSucc V c t, PhiS0_pos V c _ _ hz]
      iintro ⟨⟨⟨HS, Hr⟩, Hg⟩, Ho, ⟨%d0, H0⟩, ⟨%d1, H1⟩, ⟨%d2, H2⟩⟩
      iapply (run0_step c (grid0.coords t) _ _ _ _ _ _ scM0 (Memref.isWhole_whole _) (fun h => h0 ((hcond0_0 t).mp h)) (fun h => h1 ((hcond0_1 t).mp h))
        (blkP0 V c t) (blkO0 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is handed is the invariant before the first point; after the last point the invariant gives it back,
    the scratch's contents forgotten. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, Hr⟩, Hg⟩
  isplitl [HS Hr]
  · isplitl [HS]; · iexists _; iexact HS
    iexact Hr
  iexact Hg

/-- The same two, in the shape the call's record asks: handed the generator register, anything droppable and the scoped
    rest; giving back the generator register, nothing for semaphores of its own (it has none) and the scoped rest. -/
theorem hinR0 (c : Dev nD) (P : sProp 𝕄) :
    iprop((∃ r, prngReg c r) ∗ P ∗ Pipeline.scopedRest (Ix := Unit) (Name := ℕ) (U := UR sig nD τ) (Lvl := ℕ) (Val := Elt F) spec0 c) ⊢ (dat0 V c).Φ 0 := by
  rw [show (dat0 V c).Φ 0 = PhiS0 V c 0 (Nat.zero_le _) from rfl, PhiS0_zero V c 0 _ rfl]
  unfold Pipeline.ΦA
  iintro ⟨Hp, -, Hr⟩
  isplitl [Hr]; · iexact Hr
  iexact Hp
theorem houtR0 (c : Dev nD) :
    (dat0 V c).Φ (Fin.last cfg0.N) ⊢ iprop((∃ r, prngReg c r) ∗ BI.emp ∗ Pipeline.scopedRest (Ix := Unit) (Name := ℕ) (U := UR sig nD τ) (Lvl := ℕ) (Val := Elt F) spec0 c) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega)]
  rw [scoped0_eq]
  iintro ⟨⟨HS, Hr⟩, Hg⟩
  isplitl [Hg]; · iexact Hg
  isplitr; · iempintro
  isplitl [HS]; · iexists _; iexact HS
  iexact Hr

end Cert.KernelIdeal.Nn

end
-- ==== Proof.KiBody1.lean ====
/-
  One call of the nearest-neighbour kernel on its 8 x 8 grid, at any entry contents V of the core's buffers.

  Grid point t = 8 i + j holds query tile i and other tile j. The body keeps a running minimum in a one-column
  scratch: at j = 0 it resets the scratch to +∞, at every j it lowers it by the tile's minima, and at j = 7 it
  writes the scratch out as block i of the result. So what the scratch holds after point t is a recursion on t
  (scr1): the update of +∞ at j = 0, else the update of what the point before left. The result window is idle at
  j < 7 and is written whole at j = 7. This module states those contents, runs the body in its three control
  cases (reset; neither; write-out), and proves the body obligation at every grid point for proof data that name
  them.
-/
import proofs.«169933_j52072183497482_1_alg».proof.Proof.Gen.KernelIdeal.Launch
import proofs.«169933_j52072183497482_1_alg».proof.Proof.Gen.KernelIdeal.Skeleton
import proofs.«169933_j52072183497482_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Nn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, over the grid -/

/-- The reset branch is taken: the other-tile coordinate j is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The write-out branch is taken: j is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The two input windows are never idle; the result window is idle and not written back exactly where the
    write-out branch is not taken. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem live1_2 : ∀ t : Fin cfg1.N, cond1_1 (grid1.coords t) → cfg1.idle 2 (grid1.coords t) = false := by decide +kernel

/-! ## The body in its three control cases, on any whole staging memrefs -/

theorem zero2 : (![0, 0] : Fin 2 → Nat) = fun _ => 0 := by funext a; fin_cases a <;> rfl
theorem zero1 : (![0] : Fin 1 → Nat) = fun _ => 0 := by funext a; fin_cases a; rfl

set_option maxHeartbeats 1000000 in
/-- j = 0: the scratch, whatever it held, ends at the update of +∞; the result window's buffer is handed back as
    found. -/
theorem run1_reset (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S1024x1 .f32) (harg5 : arg5.IsWhole)
    (hc0 : cond1_0 i) (hc1 : ¬cond1_1 i)
    (x0 x1 : Vec F S1024x256 .f32) (xi : Vec F S1024 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 (k1_pay1 (F := F)))) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (fun y => ⟨_, List.mem_cons_self, View.mem_set_unit_zero zero2 inb_S1024x1_S1024x1_0_0 y⟩)]
  sl_unfold_words
  rw [View.canon_cons_unit_zero (S := S1024x1) zero2]
  simp only [View.readAt_eq_ld, harg2.read_unread, harg3.read_unread, View.ld_unit_zero (S := S1024x256) zero2, View.readCov_unit_zero (S := S1024x1) _ zero2]

set_option maxHeartbeats 1000000 in
/-- 0 < j < 7: the scratch at s ends at the update of s; the result window's buffer is handed back as found. -/
theorem run1_step (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S1024x1 .f32) (harg5 : arg5.IsWhole)
    (hc0 : ¬cond1_0 i) (hc1 : ¬cond1_1 i)
    (x0 x1 : Vec F S1024x256 .f32) (xi : Vec F S1024 .f32) (s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare s
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 s)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (fun y => ⟨_, List.mem_cons_self, View.mem_set_unit_zero zero2 inb_S1024x1_S1024x1_0_0 y⟩)]
  sl_unfold_words
  rw [View.canon_cons_unit_zero (S := S1024x1) zero2]
  simp only [View.readAt_eq_ld, harg2.read_unread, harg3.read_unread, harg5.read_unread, View.ld_unit_zero (S := S1024x256) zero2, View.ld_unit_zero (S := S1024x1) zero2, View.readCov_unit_zero (S := S1024x1) _ zero2]

set_option maxHeartbeats 1000000 in
/-- j = 7: the scratch at s ends at the update of s, and the result window's buffer, whatever it held, ends at that
    update seen as a vector. -/
theorem run1_out (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S1024x1 .f32) (harg5 : arg5.IsWhole)
    (hc0 : ¬cond1_0 i) (hc1 : cond1_1 i)
    (x0 x1 : Vec F S1024x256 .f32) (s : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (k1_pay3 (k1_pay2 x0 x1 s)) ∗ owns (c : Thread nD τ) arg5 fullShare (k1_pay2 x0 x1 s)) -∗ K ⟨⟩))
      ⊢ wp frame (wpE (defs₀ (F := F)) Variants.none c none) E (cc1__nn_min_kernel i arg2 harg2 arg3 harg3 arg4 harg4 arg5 harg5) K := by
  simp only [cc1__nn_min_kernel_eq_skeleton]; unfold cc1__nn_min_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero zero1 inb_S1024_S1024_0 y⟩)]
    sl_unfold_words
    rw [View.canon_cons_unit_zero (S := S1024) zero1]
    simp only [View.readAt_eq_ld, harg2.read_unread, harg3.read_unread, harg5.read_unread, View.ld_unit_zero (S := S1024x256) zero2, View.ld_unit_zero (S := S1024x1) zero2, View.readCov_unit_zero (S := S1024x1) _ zero2]
  iexists _; isplitr
  swap; · iexact HS0
  ipureintro
  sl_unfold_words
  rw [View.read_writes_eq_canon _ _ _ (fun y => ⟨_, List.mem_cons_self, View.mem_set_unit_zero zero2 inb_S1024x1_S1024x1_0_0 y⟩)]
  sl_unfold_words
  rw [View.canon_cons_unit_zero (S := S1024x1) zero2]
  simp only [View.readAt_eq_ld, harg2.read_unread, harg3.read_unread, harg5.read_unread, View.ld_unit_zero (S := S1024x256) zero2, View.ld_unit_zero (S := S1024x1) zero2, View.readCov_unit_zero (S := S1024x1) _ zero2]

end Cert.KernelIdeal.Nn

end
-- ==== Proof.KiData1.lean ====
/-
  The proof data of one call of the nearest-neighbour kernel, and its body obligation at every grid point.

  V is what the core's buffers hold when the call is entered. Grid point t = 8 i + j stages block i of the first
  operand and block j of the second. After point t the one-column scratch holds scr1 t: the update, by the two blocks
  of t, of +∞ when j = 0 and of scr1 (t - 1) otherwise; the result window's buffer holds that as a vector where the
  point writes it out (j = 7) and is handed back untouched elsewhere. Between points the invariant keeps the scratch
  at scr1 of the point before (before the first point, at anything), the other scoped buffers at anything and the
  generator register at some state.
-/
import proofs.«169933_j52072183497482_1_alg».proof.Proof.KiBody1

set_option maxRecDepth 16384

noncomputable section

namespace Cert.KernelIdeal.Nn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running minimum after each point -/

/-- The two input blocks of point t at their literal type. -/
abbrev blkP1 (c : Dev nD) (t : Fin cfg1.N) : Vec F S1024x256 .f32 := iblk1 V c 0 t
abbrev blkO1 (c : Dev nD) (t : Fin cfg1.N) : Vec F S1024x256 .f32 := iblk1 V c 1 t

/-- What the scratch holds after the body at position n. -/
def scr1 (c : Dev nD) : (n : ℕ) → n < cfg1.N → Vec F S1024x1 .f32
  | 0, hn => k1_pay2 (blkP1 V c ⟨0, hn⟩) (blkO1 V c ⟨0, hn⟩) (k1_pay1 (F := F))
  | n + 1, hn => k1_pay2 (blkP1 V c ⟨n + 1, hn⟩) (blkO1 V c ⟨n + 1, hn⟩)
      (if (n + 1) % 8 = 0 then (k1_pay1 (F := F)) else scr1 c n (Nat.lt_of_succ_lt hn))

/-- At a point with j = 0: the update of +∞. -/
theorem scr1_reset (c : Dev nD) (t : Fin cfg1.N) (h0 : t.val % 8 = 0) :
    scr1 V c t.val t.isLt = k1_pay2 (blkP1 V c t) (blkO1 V c t) (k1_pay1 (F := F)) := by
  obtain ⟨n, hn⟩ := t
  cases n with
  | zero => rfl
  | succ n => exact congrArg (k1_pay2 _ _) (if_pos h0)

/-- At a point with j > 0: the update of what the point before left. -/
theorem scr1_step (c : Dev nD) (t : Fin cfg1.N) (h0 : ¬t.val % 8 = 0) :
    scr1 V c t.val t.isLt = k1_pay2 (blkP1 V c t) (blkO1 V c t)
      (scr1 V c (t.val - 1) (Nat.lt_of_le_of_lt (Nat.sub_le _ _) t.isLt)) := by
  obtain ⟨n, hn⟩ := t
  cases n with
  | zero => exact absurd (Nat.zero_mod _) h0
  | succ n => exact congrArg (k1_pay2 _ _) (if_neg h0)

/-! ## The invariant between points -/

/-- The scratch of this call, a whole scoped buffer of its own. -/
abbrev scM1 : Memref sig .tc .vmem S1024x1 .f32 := Memref.whole cc1_scratch0

/-- The scoped buffers that are neither this call's staging buffers nor its scratch, at anything. -/
abbrev rest1 (c : Dev nD) : sProp 𝕄 :=
  Pipeline.scopedRestBut (Ix := Unit) (Name := ℕ) (U := UR sig nD τ) (Lvl := ℕ) (Val := Elt F) spec1 c [cc1_scratch0]

/-- What the call is handed and gives back: the scratch at anything, those other buffers, the generator register. -/
theorem scoped1_eq (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ rest1 c) := by
  rw [Pipeline.scopedRest_split_of_list spec1 c [cc1_scratch0] (by decide) (by decide)]
  simp only [BI.bigSepL_singleton, scM1, owns_whole]
  try rfl
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA
  rw [scoped1_eq]

/-- The invariant before position n: before the first point what the call was handed; afterwards the scratch at what
    the point before left. -/
def PhiS1 (c : Dev nD) : (n : ℕ) → n ≤ cfg1.N → sProp 𝕄
  | 0, _ => Pipeline.ΦA spec1 c
  | n + 1, hn => iprop((owns (c : Thread nD τ) scM1 fullShare (scr1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (scr1 V c n hn) ∗ rest1 c) ∗ (∃ r, prngReg c r)) := rfl
theorem PhiS1_pos (c : Dev nD) (n : ℕ) (h : n ≤ cfg1.N) (hz : n ≠ 0) :
    PhiS1 V c n h = iprop((owns (c : Thread nD τ) scM1 fullShare (scr1 V c (n - 1) (by omega)) ∗ rest1 c) ∗ (∃ r, prngReg c r)) := by
  cases n with
  | zero => exact absurd rfl hz
  | succ n => rfl

/-! ## The proof data -/

/-- The arrays as the call finds them; after the body at point t each input's buffer at its block and the result's at
    the running minimum as a vector; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (scr1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (scr1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the remainder of t by 8 says which control case the
    point is in; the invariant hands the body the scratch (at anything before the first point, at what the point
    before left otherwise) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  by_cases h1 : t.val % 8 = 7
  · have h0 : ¬t.val % 8 = 0 := by omega
    have hz : t.val ≠ 0 := by omega
    rw [show (dat1 V c).leavesExact 2 t = owns (c : Thread nD τ) (st1_2 t) fullShare ((dat1 V c).after 2 t) from by
      unfold Dat.leavesExact; rw [live1_2 t ((hcond1_1 t).mpr h1)], after1_2]
    rw [scr1_step V c t h0, PhiS1_castSucc V c t, PhiS1_pos V c _ _ hz]
    iintro ⟨⟨⟨HS, Hr⟩, Hg⟩, Ho, ⟨%d0, H0⟩, ⟨%d1, H1⟩, ⟨%d2, H2⟩⟩
    iapply (run1_out c (grid1.coords t) _ _ _ _ _ _ scM1 (Memref.isWhole_whole _) (fun h => h0 ((hcond1_0 t).mp h)) ((hcond1_1 t).mpr h1)
      (blkP1 V c t) (blkO1 V c t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat1 V c) 2 t (idle1_2 t (fun h => h1 ((hcond1_1 t).mp h))) (noFlush1_2 t (fun h => h1 ((hcond1_1 t).mp h)))]
    by_cases h0 : t.val % 8 = 0
    · rw [scr1_reset V c t h0]
      have hrun := fun (xi : Vec F S1024 .f32) (K : PUnit → sProp 𝕄) => run1_reset c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) scM1 (Memref.isWhole_whole _) ((hcond1_0 t).mpr h0) (fun h => h1 ((hcond1_1 t).mp h))
        (blkP1 V c t) (blkO1 V c t) xi Set.univ K
      by_cases hz : t.val = 0
      · rw [PhiS1_castSucc V c t, PhiS1_zero V c _ _ hz, PhiA1_eq]
        iintro ⟨⟨⟨HS, Hr⟩, Hg⟩, Ho, ⟨%d0, H0⟩, ⟨%d1, H1⟩, ⟨%d2, H2⟩⟩
        iapply (hrun _ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS, Hr⟩, Hg⟩, Ho, ⟨%d0, H0⟩, ⟨%d1, H1⟩, ⟨%d2, H2⟩⟩
        iapply (hrun _ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · have hz : t.val ≠ 0 := fun h => h0 (by rw [h])
      rw [scr1_step V c t h0, PhiS1_castSucc V c t, PhiS1_pos V c _ _ hz]
      iintro ⟨⟨⟨HS, Hr⟩, Hg⟩, Ho, ⟨%d0, H0⟩, ⟨%d1, H1⟩, ⟨%d2, H2⟩⟩
      iapply (run1_step c (grid1.coords t) _ _ _ _ _ _ scM1 (Memref.isWhole_whole _) (fun h => h0 ((hcond1_0 t).mp h)) (fun h => h1 ((hcond1_1 t).mp h))
        (blkP1 V c t) (blkO1 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is handed is the invariant before the first point; after the last point the invariant gives it back,
    the scratch's contents forgotten. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hr⟩, Hg⟩
  isplitl [HS Hr]
  · isplitl [HS]; · iexists _; iexact HS
    iexact Hr
  iexact Hg

/-- The same two, in the shape the call's record asks: handed the generator register, anything droppable and the scoped
    rest; giving back the generator register, nothing for semaphores of its own (it has none) and the scoped rest. -/
theorem hinR1 (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl]
  unfold Pipeline.ΦA
  iintro ⟨Hp, -, Hr⟩
  isplitl [Hr]; · iexact Hr
  iexact Hp
theorem houtR1 (c : Dev nD) :
    (dat1 V c).Φ (Fin.last cfg1.N) ⊢ iprop((∃ r, prngReg c r) ∗ BI.emp ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  rw [scoped1_eq]
  iintro ⟨⟨HS, Hr⟩, Hg⟩
  isplitl [Hg]; · iexact Hg
  isplitr; · iempintro
  isplitl [HS]; · iexists _; iexact HS
  iexact Hr

end Cert.KernelIdeal.Nn

end
-- ==== Proof.KiRun.lean ====
/-
  The whole program as three items in order: the first call of the nearest-neighbour kernel, the second call with the
  operands exchanged, and the host operations that average the two result vectors and add the averages.

  The core's buffers at each boundary are a fold from the launch memory: a call leaves its arrays at what its
  write-backs leave (the inputs as entered, the result block by block) and every other buffer as entered; the host
  stretch leaves what its operations compute. Every weakly fair execution terminates, and at the end every unscoped
  buffer holds the last boundary's contents. The frame claim and the value of the result are both read off that.
-/
import proofs.«169933_j52072183497482_1_alg».proof.Proof.KiData0
import proofs.«169933_j52072183497482_1_alg».proof.Proof.KiData1
import proofs.«169933_j52072183497482_1_alg».proof.Proof.Gen.KernelIdeal.Regions

set_option maxRecDepth 16384

noncomputable section

namespace Cert.KernelIdeal.Nn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 (c : Dev nD) : Valuation τ sig (Elt F) := fun b => m (c, b)
abbrev E0 : (c : Dev nD) → (b : Ref sig .tc) → Buf (Elt F) ((c : Thread nD τ).loc b) := fun c b => B0 m c b
/-- After the first call: its arrays at what the pipeline leaves, every other buffer as entered. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (dat0 (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the second call. -/
def B2 (c : Dev nD) : Valuation τ sig (Elt F) :=
  Pipeline.withArrays spec1 c (B1 m c) fun w => (dat1 (E1 m) c).arrAt w cfg1.N
theorem B2_arr (c : Dev nD) (w : Fin cfg1.W) :
    B2 m c (Proc.devRef .tc (Pipeline.arrRef spec1 w)) = (dat1 (E1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev E2 : (c : Dev nD) → (b : Ref sig .tc) → Buf (Elt F) ((c : Thread nD τ).loc b) := fun c b => B2 m c b
theorem hF1 (c : Dev nD) (w : Fin cfg1.W) : (dat1 (E1 m) c).arrAt w cfg1.N = E2 m c (Pipeline.arrRef spec1 w) :=
  (B2_arr m c w).symm
theorem hrest1 (c : Dev nD) : ∀ b, b ∉ Finset.univ.image (Pipeline.arrRef spec1) → E2 m c b = E1 m c b :=
  fun b hb => B2_of_ne m c b fun w e => hb (Finset.mem_image.mpr ⟨w, Finset.mem_univ _, e⟩)

/-- After the host operations. -/
abbrev B3 (c : Dev nD) : Valuation τ sig (Elt F) := StableHlo.after hostOps2 (B2 m c)

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (B3 m c) ∗ ∃ r, prngReg c r)

/-! ## The two calls as segments -/

set_option backward.isDefEq.respectTransparency.types false in
/-- The first call: entered from every unscoped buffer at the launch contents, left at B1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hinR0 (E0 m) c _
  hout c := by
    rw [Pipeline.ownSems0_none]
    exact houtR0 (E0 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from B1, left at B2. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hinR1 (E1 m) c _
  hout c := by
    rw [Pipeline.ownSems0_none]
    exact houtR1 (E1 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (B2 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tn m)
    (hch := ⟨fun _ => .rfl, fun _ => .rfl, fun _ => .rfl, fun c => by
      show iprop(StableHlo.held (c : Thread nD τ) (Pipeline.ucRefs τ sig) (B3 m c) ∗ R c) ⊢ iprop(Tn m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-! ## The last boundary read at the arguments and at the result -/

theorem B3_of (c : Dev nD) (r : Ref sig .tc) (h : r ∉ hostOps2_W) : B3 m c r = B2 m c r :=
  StableHlo.after_of_writes_sub hostOps2 _ hostOps2_writes h

/-- No item writes an argument: the first set is the first call's first operand and the second call's second, the
    second set the other way round. -/
theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of m c main_arg0 (by decide)
    _ = B1 m c (Proc.devRef .tc main_arg0) := (B2_arr m c 1).trans (((dat1 (E1 m) c).arrAt_in 1 rfl _).trans (A_eq1 (E1 m) c 1))
    _ = B0 m c (Proc.devRef .tc main_arg0) := (B1_arr m c 0).trans (((dat0 (E0 m) c).arrAt_in 0 rfl _).trans (A_eq0 (E0 m) c 0))
    _ = m ((c : Thread nD τ).loc main_arg0) := rfl
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of m c main_arg1 (by decide)
    _ = B1 m c (Proc.devRef .tc main_arg1) := (B2_arr m c 0).trans (((dat1 (E1 m) c).arrAt_in 0 rfl _).trans (A_eq1 (E1 m) c 0))
    _ = B0 m c (Proc.devRef .tc main_arg1) := (B1_arr m c 1).trans (((dat0 (E0 m) c).arrAt_in 1 rfl _).trans (A_eq0 (E0 m) c 1))
    _ = m ((c : Thread nD τ).loc main_arg1) := rfl

/-- The second call finds the arguments as launched. -/
theorem E1_main_arg0 (c : Dev nD) : E1 m c main_arg0 = m ((c : Thread nD τ).loc main_arg0) :=
  (B1_arr m c 0).trans (((dat0 (E0 m) c).arrAt_in 0 rfl _).trans (A_eq0 (E0 m) c 0))
theorem E1_main_arg1 (c : Dev nD) : E1 m c main_arg1 = m ((c : Thread nD τ).loc main_arg1) :=
  (B1_arr m c 1).trans (((dat0 (E0 m) c).arrAt_in 1 rfl _).trans (A_eq0 (E0 m) c 1))

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_main_arg0 m c),
     (h c _ (mem_uc main_arg1 (by decide))).trans (B3_main_arg1 m c)⟩) (run_all m ρ)

end Cert.KernelIdeal.Nn

end
-- ==== Proof.Spec.lean ====
/-
  The nearest-neighbour distance both programs compute, stated once on the extended reals, over literal shapes
  and free of any program's text.

  For two point sets P, O (8192 points of 256 coordinates each) and a point n of P, the distance to
  point m of O is taken by the Gram identity ‖u − v‖² = ‖u‖² + ‖v‖² − 2⟨u, v⟩, clamped below at zero and
  rooted (pd); the nearest-neighbour distance of n is the minimum of these over every m, folded from +∞
  (nearestAt). The loss is the sum of the two directed means (meanSum).
-/
import Idealize.ShloMosaic.PureOps
import Idealize.ShloMosaic.PureOps.Ideal
import Idealize.ShloMosaic.Lib.ValueIdx

noncomputable section

namespace Cert.NearestMin

open Idealize.ShloMosaic Idealize.ShloMosaic.ValueIdx

abbrev S8192x256 : Shape := ⟨2, ![8192, 256]⟩
abbrev S1024x256 : Shape := ⟨2, ![1024, 256]⟩
abbrev S8192 : Shape := ⟨1, ![8192]⟩
abbrev S_ : Shape := ⟨0, ![]⟩

/-- +∞, by the f32 pattern both programs write for it. -/
abbrev pinf : EReal := Ideal.ofBits .f32 0x7F800000#32

/-- The distance of two points given by their coordinates: the root of the clamped Gram form
    (‖u‖² + ‖v‖²) − 2·⟨u, v⟩. -/
def pd (u v : Fin 256 → EReal) : EReal :=
  Ideal.sqrt (max ((∑ k, u k * u k + ∑ k, v k * v k) - Ideal.ofBits .f32 0x40000000#32 * ∑ k, u k * v k)
    (Ideal.ofBits .f32 0x00000000#32))

/-- The distance is symmetric: addition and multiplication of extended reals commute. -/
theorem pd_comm (u v : Fin 256 → EReal) : pd u v = pd v u := by
  unfold pd
  rw [add_comm (∑ k, u k * u k), Finset.sum_congr rfl fun k _ => mul_comm (u k) (v k)]

/-- Point n of a whole set, as its coordinates. -/
def rowA (x : FVec Ideal S8192x256 .f32) (n : Fin 8192) : Fin 256 → EReal := fun k => x (ix2 n k)
/-- Point p of a tile of 1024 points, as its coordinates. -/
def rowB (x : FVec Ideal S1024x256 .f32) (p : Fin 1024) : Fin 256 → EReal := fun k => x (ix2 p k)

/-- The nearest-neighbour distance from point n of P to the set O: the minimum over every point of O,
    from +∞. -/
def nearestAt (P O : FVec Ideal S8192x256 .f32) (n : Fin 8192) : EReal :=
  (Finset.univ : Finset (Fin 8192)).fold min pinf fun m => pd (rowA P n) (rowA O m)

/-- The same for every point of P, as a vector. -/
def nearest (P O : FVec Ideal S8192x256 .f32) : FVec Ideal S8192 .f32 := fun j => nearestAt P O (j 0)

theorem nearest_ix1 (P O : FVec Ideal S8192x256 .f32) (n : Fin 8192) : nearest P O (ix1 n) = nearestAt P O n := rfl

/-- The two directed means, added: each vector summed from zero and divided by the point count 8192. Both
    programs end with these host operations on their two vectors of nearest-neighbour distances. -/
def meanSum {F : FTy → Type} [FloatOps F] (h : S8192.ReducesTo [0] S_) (h0 : 0 < S_.numel)
    (r0 r1 : FVec F S8192 .f32) : FVec F S_ .f32 :=
  addf (Host.divf (Host.reduceAdd r0 (constant S_ .f32 0x00000000#32) h h0) (constant S_ .f32 0x46000000#32))
    (Host.divf (Host.reduceAdd r1 (constant S_ .f32 0x00000000#32) h h0) (constant S_ .f32 0x46000000#32))

end Cert.NearestMin

end
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Tile.lean ====
/-
  One grid point's update of the running minimum, read at an index, on the extended reals.

  At a grid point the body holds a tile of 1024 query points (x0) and a tile of 1024 other points (x1), forms every
  pairwise distance of the two tiles by the Gram identity, takes each query point's minimum over the other tile
  from +∞, and lowers the running minimum s by it. Read at query point p this is
      min (s p) (min over q of pd (point p of x0) (point q of x1)).
  The reset value is +∞ at every point, and the write-back is the running minimum seen as a vector.

  The steps, one lemma each: the product of the first tile with the transposed second tile at (p, q) is the sum over
  the 256 coordinates k of x0(p, k) * x1(q, k); a lane sum at row p is the sum over k of the row's entries; a lane
  minimum at row p is the fold of min over the 1024 columns from the accumulator's value; the column and row
  broadcasts and the transposed one-column matrix only move an entry to another index. On the extended reals the
  narrowing to the product's input format is the identity, so nothing else is left between the body's value and pd.
-/
import proofs.«169933_j52072183497482_1_alg».proof.Proof.Gen.KernelIdeal.Skeleton
import proofs.«169933_j52072183497482_1_alg».proof.Proof.Spec
import proofs.«169933_j52072183497482_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.ValueIdx
open Cert.KernelIdeal Cert.KernelIdeal.Gen Cert.NearestMin Cert.Lib.Keepdims

/-! ## The product of the two tiles

The product contracts axis 1 of its left operand (1024 x 256) with axis 0 of its right operand (256 x 1024). At
output index i and contraction index q the left operand is read at (i 0, q) and the right operand at (q, i 1):
four facts, one per operand axis. -/

/-- The left operand's row is the output's row. -/
theorem gram_lhs_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
/-- The left operand's column is the contraction coordinate. -/
theorem gram_lhs_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- The right operand's row is the contraction coordinate. -/
theorem gram_rhs_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- The right operand's column is the output's column. -/
theorem gram_rhs_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- Into a zero accumulator the product at (p, q) is the sum over the 256 contraction coordinates k of
    a(p, k) * b(k, q): the sum over the one-axis contraction index, re-indexed by its one coordinate. -/
theorem gram_apply (a : FVec Ideal S1024x256 .bf16) (b : FVec Ideal S256x1024 .bf16) (p q : Fin 1024) :
    matmul dot_S1024x256_S256x1024_S1024x1024_1_0_0_1_n_n none a b (constant (F := Ideal) S1024x1024 .f32 0x00000000#32) (ix2 p q)
      = ∑ k : Fin 256, a (ix2 p k) * b (ix2 k q) := by
  simp only [matmul]
  rw [Ideal.matmul_constant_zero_apply,
    ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q)
      ((contrEquiv1 dot_S1024x256_S256x1024_S1024x1024_1_0_0_1_n_n 256 rfl rfl).symm k) = ix2 p k :=
    funext fun c => Fin.ext (by
      match c with
      | ⟨0, _⟩ => exact gram_lhs_0 _ _
      | ⟨1, _⟩ => exact (gram_lhs_1 _ _).trans hk)
  have er : dot_S1024x256_S256x1024_S1024x1024_1_0_0_1_n_n.rhsIdx (ix2 p q)
      ((contrEquiv1 dot_S1024x256_S256x1024_S1024x1024_1_0_0_1_n_n 256 rfl rfl).symm k) = ix2 k q :=
    funext fun c => Fin.ext (by
      match c with
      | ⟨0, _⟩ => exact (gram_rhs_0 _ _).trans hk
      | ⟨1, _⟩ => exact gram_rhs_1 _ _)
  rw [el, er]

/-- Against a transposed tile: entry (p, q) pairs row p of the first tile with row q of the second, the inner
    product of the two points. -/
theorem gram_transpose_apply (a b : FVec Ideal S1024x256 .bf16) (h : S1024x256.Transposes [1, 0] S256x1024) (p q : Fin 1024) :
    matmul dot_S1024x256_S256x1024_S1024x1024_1_0_0_1_n_n none a (transpose S256x1024 [1, 0] b h)
        (constant (F := Ideal) S1024x1024 .f32 0x00000000#32) (ix2 p q)
      = ∑ k : Fin 256, a (ix2 p k) * b (ix2 q k) := by
  rw [gram_apply]
  exact Finset.sum_congr rfl fun k _ => by rw [transpose_ix2_apply]

/-! ## The two lane reductions -/

/-- A sum along the lanes, read at row p: the sum over the 256 coordinates k of the entry (p, k). The index that
    the reduction inserts coordinate k into is (p, k), axis by axis. -/
theorem rowsum_apply (x : FVec Ideal S1024x256 .f32) (h : S1024x256.Reduces [1] S1024) (hφ : FKind.Formats .f32)
    (hacc : (0x00000000#32 : BitVec 32) = 0x00000000#32) (p : Fin 1024) :
    multiReduction .add [1] S1024 x 0x00000000#32 h hφ hacc (ix1 p) = ∑ k : Fin 256, x (ix2 p k) := by
  refine (Ideal.multiReduction_add_single x 0x00000000#32 h hφ hacc (ix1 p)).trans ?_
  refine Finset.sum_congr rfl fun k _ => congrArg x (funext fun c => Fin.ext ?_)
  match c with
  | ⟨0, _⟩ => rfl
  | ⟨1, _⟩ => rfl

/-- A minimum along the lanes from +∞, read at row p: min commutes and associates on the extended reals, so the
    reduction is the fold of min, from the accumulator's value, over the indices of row p in any order, and those
    are the 1024 columns q of (p, q). -/
theorem rowmin_apply (x : FVec Ideal S1024x1024 .f32) (h : S1024x1024.Reduces [1] S1024) (hφ : FKind.Formats .f32)
    (hacc : (0x7F800000#32 : BitVec 32) = 0x7F800000#32) (p : Fin 1024) :
    multiReduction .minimumf [1] S1024 x 0x7F800000#32 h hφ hacc (ix1 p)
      = (Finset.univ : Finset (Fin 1024)).fold min pinf fun q => x (ix2 p q) := by
  refine (multiReduction_minimumf_eq_fold x 0x7F800000#32 h hφ hacc (ix1 p)).trans ?_
  refine (h.fold_filter_drop_single _ _ x (ix1 p)).trans ?_
  show (Finset.univ : Finset (Fin 1024)).fold min pinf (x ∘ h.lift (ix1 p)) = _
  refine congrArg (Finset.fold min pinf · Finset.univ) (funext fun q => congrArg x (funext fun c => Fin.ext ?_))
  match c with
  | ⟨0, _⟩ => rfl
  | ⟨1, _⟩ => rfl

/-- The root of a tile, entry by entry, is the extended reals' root of the entry. -/
theorem sqrt_apply {s : Shape} {φ : FTy} (a : FVec Ideal s φ) (i : s.Idx) : sqrt a i = Ideal.sqrt (a i) := rfl

/-! ## The three values the body stores -/

/-- The reset value of the running minimum is +∞ at every query point. -/
theorem pay1_apply (p : Fin 1024) : (k0_pay1 (F := Ideal)) (ix2 p 0) = pinf := by
  unfold k0_pay1
  rw [shapeCast_self]
  rfl

/-- The running minimum after a point, at query point p. The cast to the same shape is the identity and the cast
    of the lane minimum to a one-column matrix keeps row p, so the stored value at p is the smaller of s p and the
    lane minimum at row p; the latter is the fold of min over the columns q of the distance tile. At (p, q) the tile
    reads: the column broadcast of the squared norms of x0 gives the squared norm of point p, the row broadcast of
    the transposed squared norms of x1 gives that of point q, the product gives the inner product of the two
    points, and the constants 2 and 0 are the same words pd writes. -/
theorem pay2_apply (x0 x1 : Vec Ideal S1024x256 .f32) (s : Vec Ideal S1024x1 .f32) (p : Fin 1024) :
    k0_pay2 x0 x1 s (ix2 p 0)
      = min (s (ix2 p 0)) ((Finset.univ : Finset (Fin 1024)).fold min pinf fun q => pd (rowB x0 p) (rowB x1 q)) := by
  unfold k0_pay2
  rw [shapeCast_self, minimumf_apply, shapeCast_a_a1_apply, rowmin_apply]
  refine congrArg (min _) (congrArg (Finset.fold min pinf · Finset.univ) (funext fun q => ?_))
  rw [sqrt_apply, maximumf_apply, subf_apply, addf_apply, mulf_apply, broadcast_apply, broadcast_apply,
    broadcastTo_a1_ab_apply, shapeCast_a_a1_apply, rowsum_apply,
    broadcastTo_1b_ab_apply, transpose_ix2_apply, shapeCast_a_a1_apply, rowsum_apply, gram_transpose_apply]
  rfl

/-- The write-back is the running minimum, one entry per query point: entry p of the vector and entry (p, 0) of
    the one-column matrix have the same row-major position p. -/
theorem pay3_apply (v : Vec Ideal S1024x1 .f32) (p : Fin 1024) : k0_pay3 v (ix1 p) = v (ix2 p 0) := by
  unfold k0_pay3
  refine shapeCast_apply v _ (ix1 p) (ix2 p 0) ?_
  rw [Shape.rowMajor_val_two, Shape.rowMajor_val_one]
  show p.val * 1 + 0 = p.val
  rw [Nat.mul_one, Nat.add_zero]

/-- The second call runs the same body: its three payloads are the first call's. -/
theorem k1_pay1_eq {F : FTy → Type} [FloatOps F] : (k1_pay1 (F := F)) = k0_pay1 := rfl
theorem k1_pay2_eq {F : FTy → Type} [FloatOps F] (x0 x1 : Vec F S1024x256 .f32) (s : Vec F S1024x1 .f32) :
    k1_pay2 x0 x1 s = k0_pay2 x0 x1 s := rfl
theorem k1_pay3_eq {F : FTy → Type} [FloatOps F] (v : Vec F S1024x1 .f32) : k1_pay3 v = k0_pay3 v := rfl

/-- The three readings, under each call's own names for the payloads. -/
theorem k0_pay1_apply (p : Fin 1024) : (k0_pay1 (F := Ideal)) (ix2 p 0) = pinf := pay1_apply p
theorem k0_pay2_apply (x0 x1 : Vec Ideal S1024x256 .f32) (s : Vec Ideal S1024x1 .f32) (p : Fin 1024) :
    k0_pay2 x0 x1 s (ix2 p 0)
      = min (s (ix2 p 0)) ((Finset.univ : Finset (Fin 1024)).fold min pinf fun q => pd (rowB x0 p) (rowB x1 q)) :=
  pay2_apply x0 x1 s p
theorem k0_pay3_apply (v : Vec Ideal S1024x1 .f32) (p : Fin 1024) : k0_pay3 v (ix1 p) = v (ix2 p 0) := pay3_apply v p
theorem k1_pay1_apply (p : Fin 1024) : (k1_pay1 (F := Ideal)) (ix2 p 0) = pinf := pay1_apply p
theorem k1_pay2_apply (x0 x1 : Vec Ideal S1024x256 .f32) (s : Vec Ideal S1024x1 .f32) (p : Fin 1024) :
    k1_pay2 x0 x1 s (ix2 p 0)
      = min (s (ix2 p 0)) ((Finset.univ : Finset (Fin 1024)).fold min pinf fun q => pd (rowB x0 p) (rowB x1 q)) :=
  pay2_apply x0 x1 s p
theorem k1_pay3_apply (v : Vec Ideal S1024x1 .f32) (p : Fin 1024) : k1_pay3 v (ix1 p) = v (ix2 p 0) := pay3_apply v p

end Cert.KernelIdeal.Tile

end
-- ==== Proof.MinTiles.lean ====
/-
  A minimum over 8192 points taken tile by tile.

  The minimum from +∞ over the points below a bound k (partialMin). Below 0 there is no point and the minimum is +∞;
  raising the bound by one tile of 1024 points lowers the minimum by that tile's own minimum from +∞; at the bound
  8192 every point is below it and the minimum is the minimum over all. Minimum on the extended reals is associative,
  commutative and idempotent, and +∞ is its unit, so the order and grouping of the fold do not matter.
-/
import proofs.«169933_j52072183497482_1_alg».proof.Proof.Spec

noncomputable section

namespace Cert.NearestMin

open Idealize.ShloMosaic

/-- The minimum, from +∞, of f over the points below k. -/
def partialMin (f : Fin 8192 → EReal) (k : ℕ) : EReal :=
  ((Finset.univ : Finset (Fin 8192)).filter fun m => m.val < k).fold min pinf f

/-- The pattern both programs write for +∞ denotes the top of the extended reals. -/
theorem pinf_eq_top : pinf = ⊤ := by simp [Ideal.ofBits, Ideal.ieee]

/-- A minimum folded from +∞ over a finite set is the infimum over that set. -/
theorem fold_min_pinf {ι : Type} (s : Finset ι) (g : ι → EReal) : s.fold min pinf g = s.inf g := by
  rw [pinf_eq_top]
  rfl

/-- Tile j of 1024 points inside the 8192: position q of the tile is point 1024 j + q. -/
def tileEmb (j : ℕ) (hj : j < 8) : Fin 1024 ↪ Fin 8192 :=
  ⟨fun q => ⟨1024 * j + q.val, by have := q.isLt; omega⟩,
    fun a b h => Fin.ext (by have := congrArg Fin.val h; simp only at this; omega)⟩

/-- The points below 1024 (j + 1) are the points below 1024 j together with tile j. -/
theorem below_succ_tile (j : ℕ) (hj : j < 8) :
    ((Finset.univ : Finset (Fin 8192)).filter fun m => m.val < 1024 * (j + 1))
      = ((Finset.univ : Finset (Fin 8192)).filter fun m => m.val < 1024 * j)
          ∪ (Finset.univ : Finset (Fin 1024)).map (tileEmb j hj) := by
  ext m
  simp only [Finset.mem_filter, Finset.mem_univ, true_and, Finset.mem_union, Finset.mem_map]
  constructor
  · intro h
    by_cases h' : m.val < 1024 * j
    · exact Or.inl h'
    · exact Or.inr ⟨⟨m.val - 1024 * j, by omega⟩, Fin.ext (by show 1024 * j + (m.val - 1024 * j) = m.val; omega)⟩
  · rintro (h | ⟨q, rfl⟩)
    · omega
    · have := q.isLt
      show 1024 * j + q.val < 1024 * (j + 1)
      omega

theorem partialMin_zero (f : Fin 8192 → EReal) : partialMin f 0 = pinf := by
  unfold partialMin
  rw [Finset.filter_false_of_mem (fun m _ => Nat.not_lt_zero m.val), Finset.fold_empty]

/-- One more tile: the minimum below 1024 (j + 1) is the minimum below 1024 j lowered by the tile's own minimum. -/
theorem partialMin_tile (f : Fin 8192 → EReal) (j : ℕ) (hj : j < 8) :
    partialMin f (1024 * (j + 1))
      = min (partialMin f (1024 * j))
          ((Finset.univ : Finset (Fin 1024)).fold min pinf fun q => f ⟨1024 * j + q.val, by have := q.isLt; omega⟩) := by
  unfold partialMin
  simp only [fold_min_pinf]
  rw [below_succ_tile j hj, Finset.inf_union, Finset.inf_map]
  rfl

/-- The first tile alone: the minimum below 1024 is +∞ lowered by the tile's own minimum. -/
theorem partialMin_first (f : Fin 8192 → EReal) :
    partialMin f 1024
      = min pinf ((Finset.univ : Finset (Fin 1024)).fold min pinf fun q => f ⟨1024 * 0 + q.val, by have := q.isLt; omega⟩) := by
  have h := partialMin_tile f 0 (by decide)
  have h0 : partialMin f (1024 * 0) = pinf := partialMin_zero f
  rw [h0] at h
  exact h

theorem partialMin_all (f : Fin 8192 → EReal) : partialMin f 8192 = (Finset.univ : Finset (Fin 8192)).fold min pinf f := by
  unfold partialMin
  rw [Finset.filter_true_of_mem (fun m _ => m.isLt)]

end Cert.NearestMin

end
-- ==== Proof.KiValue0.lean ====
/-
  What one call of the nearest-neighbour kernel leaves in its result array, on the extended reals: the vector of
  nearest-neighbour distances from its first operand's points to its second operand's set.

  Grid point t = 8 i + j holds points 1024 i .. 1024 i + 1023 of the first operand and points 1024 j .. 1024 j + 1023
  of the second. By induction along a row of the grid, after point t the running minimum at query point p is the
  minimum, from +∞, of the distances from point 1024 i + p to the second operand's points below 1024 (j + 1); at
  j = 7 that is every point of the second operand. The point j = 7 writes this out as block i of the result, and the
  eight blocks i = 0 .. 7 tile the result array.
-/
import proofs.«169933_j52072183497482_1_alg».proof.Proof.KiData0
import proofs.«169933_j52072183497482_1_alg».proof.Proof.Tile
import proofs.«169933_j52072183497482_1_alg».proof.Proof.MinTiles
import proofs.«169933_j52072183497482_1_alg».proof.Proof.Spec
import Idealize.ShloMosaic.Lib.Pipeline.Value
import Idealize.ShloMosaic.Lib.ValueIdx

set_option maxRecDepth 16384

noncomputable section

namespace Cert.KernelIdeal.Nn

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Tile Cert.NearestMin

variable (V : (c : Dev nD) → (b : Ref sig .tc) → Buf (Elt Ideal) ((c : Thread nD τ).loc b))

/-! ## Where the blocks sit

Over the 64 grid points, decided once: at point t the first operand's window is on block t / 8 of its rows and block
0 of its columns, the second operand's on block t % 8 and block 0, the result's on block t / 8. -/

theorem idx_facts0 : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 1) = t.val / 8 :=
  (by decide +kernel : ∀ t : Fin grid0.N, _)

/-- Row p of the first operand's block at point t is point 1024 (t / 8) + p of the first operand: an entry of a
    block sits in the array, on each axis, at the block index times the block size plus its own coordinate. -/
theorem rowB_blkP0 (c : Dev nD) (t : Fin cfg0.N) (p : Fin 1024) (n : Fin 8192) (hn : n.val = 1024 * (t.val / 8) + p.val) :
    rowB (blkP0 V c t) p = rowA (V c main_arg0) n := by
  obtain ⟨e0, e1, -, -, -⟩ := idx_facts0 t
  funext k
  unfold rowB rowA blkP0 iblk0
  rw [View.read_apply]
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 1024 + 1 * p.val = n.val; rw [e0, hn]; omega
  | ⟨1, _⟩ => show win0_0.index t (1 : Fin 2) * 256 + 1 * k.val = k.val; rw [e1]; omega

/-- Row q of the second operand's block at point t is point 1024 (t % 8) + q of the second operand. -/
theorem rowB_blkO0 (c : Dev nD) (t : Fin cfg0.N) (q : Fin 1024) (n : Fin 8192) (hn : n.val = 1024 * (t.val % 8) + q.val) :
    rowB (blkO0 V c t) q = rowA (V c main_arg1) n := by
  obtain ⟨-, -, e0, e1, -⟩ := idx_facts0 t
  funext k
  unfold rowB rowA blkO0 iblk0
  rw [View.read_apply]
  show V c main_arg1 (((cfg0.win 1).blk t).view.emb (ix2 q k)) = V c main_arg1 (ix2 n k)
  refine congrArg (V c main_arg1) (funext fun a => Fin.ext ?_)
  match a with
  | ⟨0, _⟩ => show win0_1.index t (0 : Fin 2) * 1024 + 1 * q.val = n.val; rw [e0, hn]; omega
  | ⟨1, _⟩ => show win0_1.index t (1 : Fin 2) * 256 + 1 * k.val = k.val; rw [e1]; omega

/-! ## The running minimum along a row of the grid -/

/-- The distances from point r of the first operand to every point of the second. -/
def distRow0 (c : Dev nD) (r : Fin 8192) (m : Fin 8192) : EReal := pd (rowA (V c main_arg0) r) (rowA (V c main_arg1) m)

/-- The tile minimum the body takes at point t for query point p, with j = t % 8: the minimum, from +∞, of the
    distances from point r = 1024 (t / 8) + p to the points 1024 j .. 1024 j + 1023 of the second operand. -/
theorem tileMin0_eq (c : Dev nD) (t : Fin cfg0.N) (p : Fin 1024) (r : Fin 8192) (hr : r.val = 1024 * (t.val / 8) + p.val)
    (j : ℕ) (hj : j < 8) (htj : t.val % 8 = j) :
    ((Finset.univ : Finset (Fin 1024)).fold min pinf fun q => pd (rowB (blkP0 V c t) p) (rowB (blkO0 V c t) q))
      = (Finset.univ : Finset (Fin 1024)).fold min pinf fun q =>
          distRow0 V c r ⟨1024 * j + q.val, by have := q.isLt; omega⟩ := by
  refine congrArg (Finset.fold min pinf · Finset.univ) (funext fun q => ?_)
  rw [rowB_blkP0 V c t p r hr, rowB_blkO0 V c t q ⟨1024 * j + q.val, by have := q.isLt; omega⟩ (by rw [htj])]
  rfl

/-- THE INVARIANT. After position n = 8 i + j the scratch at query point p holds the minimum, from +∞, of the
    distances from point r = 1024 i + p to the second operand's points below 1024 (j + 1). By induction on n. At
    j = 0 the body lowers +∞ by the first tile's minimum: the minimum below 1024. At j > 0 position n - 1 is in the
    same row of the grid (same i, and (n - 1) % 8 + 1 = j), so the scratch held the minimum below 1024 j, and the body
    lowers it by tile j's minimum: the minimum below 1024 (j + 1). -/
theorem scr0_apply (c : Dev nD) (n : ℕ) : ∀ (hn : n < cfg0.N) (p : Fin 1024) (r : Fin 8192), r.val = 1024 * (n / 8) + p.val →
    scr0 V c n hn (ix2 p 0) = partialMin (distRow0 V c r) (1024 * (n % 8 + 1)) := by
  induction n using Nat.strong_induction_on with
  | _ n ih =>
    intro hn p r hr
    by_cases h0 : n % 8 = 0
    · rw [scr0_reset V c ⟨n, hn⟩ h0, k0_pay2_apply, k0_pay1_apply, tileMin0_eq V c ⟨n, hn⟩ p r hr 0 (by omega) h0, h0]
      exact (partialMin_first _).symm
    · have hN : cfg0.N = 64 := N_0
      rw [scr0_step V c ⟨n, hn⟩ h0, k0_pay2_apply, tileMin0_eq V c ⟨n, hn⟩ p r hr (n % 8) (by omega) rfl]
      rw [ih (n - 1) (by omega) (by omega) p r (by omega)]
      rw [show 1024 * ((n - 1) % 8 + 1) = 1024 * (n % 8) from by omega]
      exact (partialMin_tile _ (n % 8) (by omega)).symm

/-! ## What is written back, and where -/

/-- A point that writes back has j = 7, so its running minimum is over the points below 8192, every point of the
    second operand: entry p of what it writes is the nearest-neighbour distance of point 1024 (t / 8) + p, which is
    the entry of the result's block t / 8 at p. -/
theorem flushed0_eq (c : Dev nD) (t : Fin cfg0.N) (hf : (cfg0.win 2).flush t = true) :
    (dat0 (F := Ideal) V c).flushed 2 t
      = ((cfg0.win 2).blk t).view.read (Elt Ideal) (nearest (V c main_arg0) (V c main_arg1)) := by
  have h7 : t.val % 8 = 7 := (flush0_2 t).mp hf
  obtain ⟨-, -, -, -, e2⟩ := idx_facts0 t
  show (cfg0.win 2).cut (grid0.coords t) ((dat0 V c).after 2 t) = _
  rw [after0_2]
  funext y
  have hy : (y 0).val < 1024 := (y 0).isLt
  have hx : (cfg0.win 2).xinj (grid0.coords t) y = ix1 (⟨(y 0).val, hy⟩ : Fin 1024) :=
    funext fun a => by match a with | ⟨0, _⟩ => rfl
  rw [View.read_apply]
  show k0_pay3 (scr0 V c t.val t.isLt) ((cfg0.win 2).xinj (grid0.coords t) y)
    = nearestAt (V c main_arg0) (V c main_arg1) ((((cfg0.win 2).blk t).view.emb y) 0)
  rw [hx, k0_pay3_apply, scr0_apply V c t.val t.isLt ⟨(y 0).val, hy⟩ ((((cfg0.win 2).blk t).view.emb y) 0)
    (by show win0_2.index t (0 : Fin 1) * 1024 + 1 * (y 0).val = 1024 * (t.val / 8) + (y 0).val; rw [e2]; omega), h7]
  exact partialMin_all _

/-- The eight blocks written back tile the result: entry i lies in block i / 1024, which the point
    8 (i / 1024) + 7 writes. -/
theorem cover0 (i : S8192.Idx) : ∃ t : Fin cfg0.N, (cfg0.win 2).flush t = true ∧ i ∈ ((cfg0.win 2).blk t).view.set := by
  have hi : (i 0).val < 8192 := (i 0).isLt
  have hN : cfg0.N = 64 := N_0
  have ht : 8 * ((i 0).val / 1024) + 7 < cfg0.N := by omega
  obtain ⟨-, -, -, -, e2⟩ := idx_facts0 ⟨8 * ((i 0).val / 1024) + 7, ht⟩
  refine ⟨⟨8 * ((i 0).val / 1024) + 7, ht⟩, (flush0_2 _).mpr (by show (8 * ((i 0).val / 1024) + 7) % 8 = 7; omega), ?_⟩
  show i ∈ ((View.whole main_v0).slice (win0_2.rect ⟨8 * ((i 0).val / 1024) + 7, ht⟩)).set
  rw [View.set_slice_whole, Rect.mem_set_unit]
  intro a
  match a with
  | ⟨0, _⟩ =>
    show win0_2.index ⟨8 * ((i 0).val / 1024) + 7, ht⟩ (0 : Fin 1) * 1024 ≤ (i 0).val
      ∧ (i 0).val < win0_2.index ⟨8 * ((i 0).val / 1024) + 7, ht⟩ (0 : Fin 1) * 1024 + 1024
    rw [e2]
    show (8 * ((i 0).val / 1024) + 7) / 8 * 1024 ≤ (i 0).val ∧ (i 0).val < (8 * ((i 0).val / 1024) + 7) / 8 * 1024 + 1024
    omega

/-- THE RESULT ARRAY after the call: the nearest-neighbour distances from the first operand's points to the second
    operand's set. -/
theorem arr0_final (c : Dev nD) :
    (dat0 (F := Ideal) V c).arrAt 2 cfg0.N = nearest (V c main_arg0) (V c main_arg1) := by
  exact (dat0 (F := Ideal) V c).arrAt_eq_of_cover 2 (nearest (V c main_arg0) (V c main_arg1))
    (fun t ht => flushed0_eq V c t ht) cover0

end Cert.KernelIdeal.Nn

end
-- ==== Proof.KiValue1.lean ====
/-
  What one call of the nearest-neighbour kernel leaves in its result array, on the extended reals: the vector of
  nearest-neighbour distances from its first operand's points to its second operand's set.

  Grid point t = 8 i + j holds points 1024 i .. 1024 i + 1023 of the first operand and points 1024 j .. 1024 j + 1023
  of the second. By induction along a row of the grid, after point t the running minimum at query point p is the
  minimum, from +∞, of the distances from point 1024 i + p to the second operand's points below 1024 (j + 1); at
  j = 7 that is every point of the second operand. The point j = 7 writes this out as block i of the result, and the
  eight blocks i = 0 .. 7 tile the result array.
-/
import proofs.«169933_j52072183497482_1_alg».proof.Proof.KiData1
import proofs.«169933_j52072183497482_1_alg».proof.Proof.Tile
import proofs.«169933_j52072183497482_1_alg».proof.Proof.MinTiles
import proofs.«169933_j52072183497482_1_alg».proof.Proof.Spec
import Idealize.ShloMosaic.Lib.Pipeline.Value
import Idealize.ShloMosaic.Lib.ValueIdx

set_option maxRecDepth 16384

noncomputable section

namespace Cert.KernelIdeal.Nn

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Tile Cert.NearestMin

variable (V : (c : Dev nD) → (b : Ref sig .tc) → Buf (Elt Ideal) ((c : Thread nD τ).loc b))

/-! ## Where the blocks sit

Over the 64 grid points, decided once: at point t the first operand's window is on block t / 8 of its rows and block
0 of its columns, the second operand's on block t % 8 and block 0, the result's on block t / 8. -/

theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 1) = t.val / 8 :=
  (by decide +kernel : ∀ t : Fin grid1.N, _)

/-- Row p of the first operand's block at point t is point 1024 (t / 8) + p of the first operand: an entry of a
    block sits in the array, on each axis, at the block index times the block size plus its own coordinate. -/
theorem rowB_blkP1 (c : Dev nD) (t : Fin cfg1.N) (p : Fin 1024) (n : Fin 8192) (hn : n.val = 1024 * (t.val / 8) + p.val) :
    rowB (blkP1 V c t) p = rowA (V c main_arg1) n := by
  obtain ⟨e0, e1, -, -, -⟩ := idx_facts1 t
  funext k
  unfold rowB rowA blkP1 iblk1
  rw [View.read_apply]
  show V c main_arg1 (((cfg1.win 0).blk t).view.emb (ix2 p k)) = V c main_arg1 (ix2 n k)
  refine congrArg (V c main_arg1) (funext fun a => Fin.ext ?_)
  match a with
  | ⟨0, _⟩ => show win1_0.index t (0 : Fin 2) * 1024 + 1 * p.val = n.val; rw [e0, hn]; omega
  | ⟨1, _⟩ => show win1_0.index t (1 : Fin 2) * 256 + 1 * k.val = k.val; rw [e1]; omega

/-- Row q of the second operand's block at point t is point 1024 (t % 8) + q of the second operand. -/
theorem rowB_blkO1 (c : Dev nD) (t : Fin cfg1.N) (q : Fin 1024) (n : Fin 8192) (hn : n.val = 1024 * (t.val % 8) + q.val) :
    rowB (blkO1 V c t) q = rowA (V c main_arg0) n := by
  obtain ⟨-, -, e0, e1, -⟩ := idx_facts1 t
  funext k
  unfold rowB rowA blkO1 iblk1
  rw [View.read_apply]
  show V c main_arg0 (((cfg1.win 1).blk t).view.emb (ix2 q k)) = V c main_arg0 (ix2 n k)
  refine congrArg (V c main_arg0) (funext fun a => Fin.ext ?_)
  match a with
  | ⟨0, _⟩ => show win1_1.index t (0 : Fin 2) * 1024 + 1 * q.val = n.val; rw [e0, hn]; omega
  | ⟨1, _⟩ => show win1_1.index t (1 : Fin 2) * 256 + 1 * k.val = k.val; rw [e1]; omega

/-! ## The running minimum along a row of the grid -/

/-- The distances from point r of the first operand to every point of the second. -/
def distRow1 (c : Dev nD) (r : Fin 8192) (m : Fin 8192) : EReal := pd (rowA (V c main_arg1) r) (rowA (V c main_arg0) m)

/-- The tile minimum the body takes at point t for query point p, with j = t % 8: the minimum, from +∞, of the
    distances from point r = 1024 (t / 8) + p to the points 1024 j .. 1024 j + 1023 of the second operand. -/
theorem tileMin1_eq (c : Dev nD) (t : Fin cfg1.N) (p : Fin 1024) (r : Fin 8192) (hr : r.val = 1024 * (t.val / 8) + p.val)
    (j : ℕ) (hj : j < 8) (htj : t.val % 8 = j) :
    ((Finset.univ : Finset (Fin 1024)).fold min pinf fun q => pd (rowB (blkP1 V c t) p) (rowB (blkO1 V c t) q))
      = (Finset.univ : Finset (Fin 1024)).fold min pinf fun q =>
          distRow1 V c r ⟨1024 * j + q.val, by have := q.isLt; omega⟩ := by
  refine congrArg (Finset.fold min pinf · Finset.univ) (funext fun q => ?_)
  rw [rowB_blkP1 V c t p r hr, rowB_blkO1 V c t q ⟨1024 * j + q.val, by have := q.isLt; omega⟩ (by rw [htj])]
  rfl

/-- THE INVARIANT. After position n = 8 i + j the scratch at query point p holds the minimum, from +∞, of the
    distances from point r = 1024 i + p to the second operand's points below 1024 (j + 1). By induction on n. At
    j = 0 the body lowers +∞ by the first tile's minimum: the minimum below 1024. At j > 0 position n - 1 is in the
    same row of the grid (same i, and (n - 1) % 8 + 1 = j), so the scratch held the minimum below 1024 j, and the body
    lowers it by tile j's minimum: the minimum below 1024 (j + 1). -/
theorem scr1_apply (c : Dev nD) (n : ℕ) : ∀ (hn : n < cfg1.N) (p : Fin 1024) (r : Fin 8192), r.val = 1024 * (n / 8) + p.val →
    scr1 V c n hn (ix2 p 0) = partialMin (distRow1 V c r) (1024 * (n % 8 + 1)) := by
  induction n using Nat.strong_induction_on with
  | _ n ih =>
    intro hn p r hr
    by_cases h0 : n % 8 = 0
    · rw [scr1_reset V c ⟨n, hn⟩ h0, k1_pay2_apply, k1_pay1_apply, tileMin1_eq V c ⟨n, hn⟩ p r hr 0 (by omega) h0, h0]
      exact (partialMin_first _).symm
    · have hN : cfg1.N = 64 := N_1
      rw [scr1_step V c ⟨n, hn⟩ h0, k1_pay2_apply, tileMin1_eq V c ⟨n, hn⟩ p r hr (n % 8) (by omega) rfl]
      rw [ih (n - 1) (by omega) (by omega) p r (by omega)]
      rw [show 1024 * ((n - 1) % 8 + 1) = 1024 * (n % 8) from by omega]
      exact (partialMin_tile _ (n % 8) (by omega)).symm

/-! ## What is written back, and where -/

/-- A point that writes back has j = 7, so its running minimum is over the points below 8192, every point of the
    second operand: entry p of what it writes is the nearest-neighbour distance of point 1024 (t / 8) + p, which is
    the entry of the result's block t / 8 at p. -/
theorem flushed1_eq (c : Dev nD) (t : Fin cfg1.N) (hf : (cfg1.win 2).flush t = true) :
    (dat1 (F := Ideal) V c).flushed 2 t
      = ((cfg1.win 2).blk t).view.read (Elt Ideal) (nearest (V c main_arg1) (V c main_arg0)) := by
  have h7 : t.val % 8 = 7 := (flush1_2 t).mp hf
  obtain ⟨-, -, -, -, e2⟩ := idx_facts1 t
  show (cfg1.win 2).cut (grid1.coords t) ((dat1 V c).after 2 t) = _
  rw [after1_2]
  funext y
  have hy : (y 0).val < 1024 := (y 0).isLt
  have hx : (cfg1.win 2).xinj (grid1.coords t) y = ix1 (⟨(y 0).val, hy⟩ : Fin 1024) :=
    funext fun a => by match a with | ⟨0, _⟩ => rfl
  rw [View.read_apply]
  show k1_pay3 (scr1 V c t.val t.isLt) ((cfg1.win 2).xinj (grid1.coords t) y)
    = nearestAt (V c main_arg1) (V c main_arg0) ((((cfg1.win 2).blk t).view.emb y) 0)
  rw [hx, k1_pay3_apply, scr1_apply V c t.val t.isLt ⟨(y 0).val, hy⟩ ((((cfg1.win 2).blk t).view.emb y) 0)
    (by show win1_2.index t (0 : Fin 1) * 1024 + 1 * (y 0).val = 1024 * (t.val / 8) + (y 0).val; rw [e2]; omega), h7]
  exact partialMin_all _

/-- The eight blocks written back tile the result: entry i lies in block i / 1024, which the point
    8 (i / 1024) + 7 writes. -/
theorem cover1 (i : S8192.Idx) : ∃ t : Fin cfg1.N, (cfg1.win 2).flush t = true ∧ i ∈ ((cfg1.win 2).blk t).view.set := by
  have hi : (i 0).val < 8192 := (i 0).isLt
  have hN : cfg1.N = 64 := N_1
  have ht : 8 * ((i 0).val / 1024) + 7 < cfg1.N := by omega
  obtain ⟨-, -, -, -, e2⟩ := idx_facts1 ⟨8 * ((i 0).val / 1024) + 7, ht⟩
  refine ⟨⟨8 * ((i 0).val / 1024) + 7, ht⟩, (flush1_2 _).mpr (by show (8 * ((i 0).val / 1024) + 7) % 8 = 7; omega), ?_⟩
  show i ∈ ((View.whole main_v1).slice (win1_2.rect ⟨8 * ((i 0).val / 1024) + 7, ht⟩)).set
  rw [View.set_slice_whole, Rect.mem_set_unit]
  intro a
  match a with
  | ⟨0, _⟩ =>
    show win1_2.index ⟨8 * ((i 0).val / 1024) + 7, ht⟩ (0 : Fin 1) * 1024 ≤ (i 0).val
      ∧ (i 0).val < win1_2.index ⟨8 * ((i 0).val / 1024) + 7, ht⟩ (0 : Fin 1) * 1024 + 1024
    rw [e2]
    show (8 * ((i 0).val / 1024) + 7) / 8 * 1024 ≤ (i 0).val ∧ (i 0).val < (8 * ((i 0).val / 1024) + 7) / 8 * 1024 + 1024
    omega

/-- THE RESULT ARRAY after the call: the nearest-neighbour distances from the first operand's points to the second
    operand's set. -/
theorem arr1_final (c : Dev nD) :
    (dat1 (F := Ideal) V c).arrAt 2 cfg1.N = nearest (V c main_arg1) (V c main_arg0) := by
  exact (dat1 (F := Ideal) V c).arrAt_eq_of_cover 2 (nearest (V c main_arg1) (V c main_arg0))
    (fun t ht => flushed1_eq V c t ht) cover1

end Cert.KernelIdeal.Nn

end
-- ==== Proof.KiFinal.lean ====
/-
  The value of the whole program on the extended reals: its result is the mean sum of the two vectors of
  nearest-neighbour distances, the first set's to the second and the second set's to the first.

  The first call leaves the first vector in its result array, the second call (which finds the arguments as launched,
  no call writing them) the second vector; the host operations that follow are the mean sum of those two arrays.
-/
import proofs.«169933_j52072183497482_1_alg».proof.Proof.KiRun
import proofs.«169933_j52072183497482_1_alg».proof.Proof.KiValue0
import proofs.«169933_j52072183497482_1_alg».proof.Proof.KiValue1
import Idealize.ShloMosaic.Lib.StableHlo.Run

set_option maxRecDepth 16384

noncomputable section

namespace Cert.KernelIdeal.Nn

open Idealize.ShloMosaic Idealize.ShloMosaic.TcCoe
open Idealize.SL Idealize.SL.Sem
open Idealize.ShloMosaic.Pipeline (Dat Cfg Window)
open Cert.KernelIdeal Cert.KernelIdeal.Gen Cert.NearestMin

variable (m : (ℓ : Loc nD τ sig) → Buf (Elt Ideal) ℓ) (ρ : Dev nD → PrngReg)

/-- The host operations after the calls: the result is the mean sum of the two result arrays. -/
theorem B3_main_v6 (c : Dev nD) :
    B3 m c (Proc.devRef .tc main_v6)
      = meanSum (F := Ideal) reducesTo_S8192_S_d0 h_S_ (B2 m c (Proc.devRef .tc main_v0)) (B2 m c (Proc.devRef .tc main_v1)) := by
  show StableHlo.after hostOps2 _ (Proc.devRef .tc main_v6) = _
  after_results
  rfl

/-- The first call's result array reaches the host operations untouched by the second call. -/
theorem B2_main_v0 (c : Dev nD) :
    B2 m c (Proc.devRef .tc main_v0) = nearest (m ((c : Thread nD τ).loc main_arg0)) (m ((c : Thread nD τ).loc main_arg1)) :=
  (B2_of_ne m c main_v0 (by decide)).trans ((B1_arr m c 2).trans (arr0_final (E0 m) c))

/-- The second call's result array, its operands being the arguments as launched. -/
theorem B2_main_v1 (c : Dev nD) :
    B2 m c (Proc.devRef .tc main_v1) = nearest (m ((c : Thread nD τ).loc main_arg1)) (m ((c : Thread nD τ).loc main_arg0)) :=
  (B2_arr m c 2).trans ((arr1_final (E1 m) c).trans (by rw [E1_main_arg0, E1_main_arg1]))

/-- THE VALUE: every weakly fair execution terminates with the result at the mean sum of the two vectors and the
    arguments unchanged. -/
theorem value : θ_run defs (onTc (τ := τ) (main (F := Ideal))) ⟨m, fun _ => 0, ρ⟩ (fun r => ∀ c : Dev nD,
      r.2.mem ((c.tc : Thread nD τ).loc main_v6)
        = meanSum (F := Ideal) reducesTo_S8192_S_d0 h_S_
            (nearest (m ((c.tc : Thread nD τ).loc main_arg0)) (m ((c.tc : Thread nD τ).loc main_arg1)))
            (nearest (m ((c.tc : Thread nD τ).loc main_arg1)) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v6 (by decide))).trans ((B3_main_v6 m c).trans (by rw [B2_main_v0, B2_main_v1])),
     (h c _ (mem_uc main_arg0 (by decide))).trans (B3_main_arg0 m c),
     (h c _ (mem_uc main_arg1 (by decide))).trans (B3_main_arg1 m c)⟩) (run_all m ρ)

end Cert.KernelIdeal.Nn

end
-- ==== Proof.RefValue.lean ====
/-
  The reference's result, stage by stage, is the mean sum of the two vectors of nearest-neighbour distances.

  The reference forms the whole 8192 x 8192 matrix of clamped, rooted Gram distances d(n, m) between point n of the
  first set and point m of the second, takes the minimum of every row (over m) and of every column (over n), each
  from +∞, and adds the two means. Row n's minimum is the nearest-neighbour distance of point n of the first set to
  the second set; column m's minimum is that of point m of the second set to the first, because the distance is
  symmetric in its two points.
-/
import proofs.«169933_j52072183497482_1_alg».proof.Proof.Gen.ReferenceIdeal.Run
import proofs.«169933_j52072183497482_1_alg».proof.Proof.Gen.ReferenceIdeal.Read
import proofs.«169933_j52072183497482_1_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal Cert.ReferenceIdeal.Gen Cert.ReferenceIdeal.Read Cert.NearestMin

/-- The squared norm of point n of the first set, as the reference sums it: from zero over the 256 coordinates. -/
theorem sqnorm0_apply (x0 : (⟨S8192x256, .f32⟩ : BufTy).Contents (Elt Ideal)) (n : Fin 8192) :
    val_main_v1 (F := Ideal) x0 (ix1 n) = ∑ k, rowA x0 n k * rowA x0 n k := by
  rw [val_main_v1_apply, val_main_cst_apply]
  simp only [val_main_v0_apply, Ideal.ofBits_def, Ideal.mulf_def, Ideal.ofBits_zero_f32, zero_add]
  refine Finset.sum_congr rfl fun k _ => ?_
  have e : idx_main_v1 (ix1 n) k = ix2 n k :=
    funext fun a => Fin.ext (by match a with | ⟨0, _⟩ => rfl | ⟨1, _⟩ => rfl)
  rw [e]
  rfl

/-- The same for point m of the second set. -/
theorem sqnorm1_apply (x1 : (⟨S8192x256, .f32⟩ : BufTy).Contents (Elt Ideal)) (m : Fin 8192) :
    val_main_v3 (F := Ideal) x1 (ix1 m) = ∑ k, rowA x1 m k * rowA x1 m k := by
  rw [val_main_v3_apply, val_main_cst_0_apply]
  simp only [val_main_v2_apply, Ideal.ofBits_def, Ideal.mulf_def, Ideal.ofBits_zero_f32, zero_add]
  refine Finset.sum_congr rfl fun k _ => ?_
  have e : idx_main_v3 (ix1 m) k = ix2 m k :=
    funext fun a => Fin.ext (by match a with | ⟨0, _⟩ => rfl | ⟨1, _⟩ => rfl)
  rw [e]
  rfl

/-- The inner product of point n of the first set with point m of the second: the contraction over the coordinates. -/
theorem gram_apply (x0 x1 : (⟨S8192x256, .f32⟩ : BufTy).Contents (Elt Ideal)) (n m : Fin 8192) :
    val_main_v4 (F := Ideal) x0 x1 (ix2 n m) = ∑ k, rowA x0 n k * rowA x1 m k := by
  rw [val_main_v4_apply]
  refine Finset.sum_congr rfl fun k _ => ?_
  have el : lidx_main_v4 (ix2 n m) k = ix2 n k :=
    funext fun a => Fin.ext (by match a with | ⟨0, _⟩ => rfl | ⟨1, _⟩ => rfl)
  have er : ridx_main_v4 (ix2 n m) k = ix2 m k :=
    funext fun a => Fin.ext (by match a with | ⟨0, _⟩ => rfl | ⟨1, _⟩ => rfl)
  rw [el, er]
  rfl

/-- Entry (n, m) of the distance matrix is the distance of point n of the first set to point m of the second. -/
theorem dist_apply (x0 x1 : (⟨S8192x256, .f32⟩ : BufTy).Contents (Elt Ideal)) (n m : Fin 8192) :
    val_main_v15 (F := Ideal) x0 x1 (ix2 n m) = pd (rowA x0 n) (rowA x1 m) := by
  have e0 : idx_main_v5 (idx_main_v7 (ix2 n m)) = ix1 n :=
    funext fun a => Fin.ext (by match a with | ⟨0, _⟩ => rfl)
  have e1 : idx_main_v6 (idx_main_v8 (ix2 n m)) = ix1 m :=
    funext fun a => Fin.ext (by match a with | ⟨0, _⟩ => rfl)
  rw [val_main_v15_apply, val_main_v14_apply, val_main_v12_apply, val_main_v9_apply, val_main_v7_apply,
    val_main_v5_apply, val_main_v8_apply, val_main_v6_apply, val_main_v11_apply, val_main_v10_apply,
    val_main_v13_apply, e0, e1, sqnorm0_apply, sqnorm1_apply, gram_apply, val_main_cst_1_apply, val_main_cst_2_apply]
  simp only [Ideal.ofBits_def, Ideal.mulf_def, Ideal.addf_def, Ideal.subf_def, Ideal.maximumf_def,
    Ideal.hostUnary_sqrt_def]
  rfl

/-- The shape fact of the row minimum (axis 1 dropped), in the form that names the index over a result index. -/
theorem reduces_rows : S8192x8192.Reduces [1] S8192 := by decide

/-- The shape fact of the column minimum (axis 0 dropped). -/
theorem reduces_cols : S8192x8192.Reduces [0] S8192 := by decide

/-- Over row n, the index with coordinate m on the dropped axis is (n, m). -/
theorem lift_rows (n m : Fin 8192) : reduces_rows.lift (ix1 n) m = ix2 n m :=
  funext fun a => Fin.ext (by match a with | ⟨0, _⟩ => rfl | ⟨1, _⟩ => rfl)

/-- Over column m, the index with coordinate n on the dropped axis is (n, m). -/
theorem lift_cols (m n : Fin 8192) : reduces_cols.lift (ix1 m) n = ix2 n m :=
  funext fun a => Fin.ext (by match a with | ⟨0, _⟩ => rfl | ⟨1, _⟩ => rfl)

/-- Row n's minimum of the distance matrix, from +∞, is the nearest-neighbour distance of point n of the first set. -/
theorem rowmin_apply (x0 x1 : (⟨S8192x256, .f32⟩ : BufTy).Contents (Elt Ideal)) (n : Fin 8192) :
    val_main_v16 (F := Ideal) x0 x1 (ix1 n) = nearestAt x0 x1 n := by
  unfold val_main_v16
  generalize hy : val_main_v15 (F := Ideal) x0 x1 = y
  have key := Host.reduce_eq_fold_single (FloatOps.minimumf (F := Ideal) (φ := .f32)) y (val_main_cst_3 (F := Ideal))
    reducesTo_S8192x8192_S8192_d1 reduces_rows h_S_ (ix1 n)
  refine key.trans ?_
  unfold nearestAt
  show (Finset.univ : Finset (Fin 8192)).fold min pinf (fun m => y (reduces_rows.lift (ix1 n) m)) = _
  refine Finset.fold_congr fun (m : Fin 8192) _ => ?_
  rw [lift_rows n m, ← hy, dist_apply]

/-- Column m's minimum, from +∞, is the nearest-neighbour distance of point m of the second set to the first:
    the distance of n to m is that of m to n. -/
theorem colmin_apply (x0 x1 : (⟨S8192x256, .f32⟩ : BufTy).Contents (Elt Ideal)) (m : Fin 8192) :
    val_main_v19 (F := Ideal) x0 x1 (ix1 m) = nearestAt x1 x0 m := by
  unfold val_main_v19
  generalize hy : val_main_v15 (F := Ideal) x0 x1 = y
  have key := Host.reduce_eq_fold_single (FloatOps.minimumf (F := Ideal) (φ := .f32)) y (val_main_cst_6 (F := Ideal))
    reducesTo_S8192x8192_S8192_d0 reduces_cols h_S_ (ix1 m)
  refine key.trans ?_
  unfold nearestAt
  show (Finset.univ : Finset (Fin 8192)).fold min pinf (fun n => y (reduces_cols.lift (ix1 m) n)) = _
  refine Finset.fold_congr fun (n : Fin 8192) _ => ?_
  rw [lift_cols m n, ← hy, dist_apply, pd_comm]

/-- Every row's minimum of the distance matrix is the first set's nearest-neighbour distances to the second. -/
theorem rowmin_eq (x0 x1 : (⟨S8192x256, .f32⟩ : BufTy).Contents (Elt Ideal)) :
    val_main_v16 (F := Ideal) x0 x1 = nearest x0 x1 := by
  funext j
  obtain ⟨n, rfl⟩ : ∃ n : Fin 8192, j = ix1 n := ⟨j 0, eq_ix1 j⟩
  rw [rowmin_apply, nearest_ix1]

/-- Every column's minimum is the second set's nearest-neighbour distances to the first (the distance is symmetric). -/
theorem colmin_eq (x0 x1 : (⟨S8192x256, .f32⟩ : BufTy).Contents (Elt Ideal)) :
    val_main_v19 (F := Ideal) x0 x1 = nearest x1 x0 := by
  funext j
  obtain ⟨m, rfl⟩ : ∃ m : Fin 8192, j = ix1 m := ⟨j 0, eq_ix1 j⟩
  rw [colmin_apply, nearest_ix1]

/-- The reference's result is the mean sum of the two. -/
theorem result_eq (x0 x1 : (⟨S8192x256, .f32⟩ : BufTy).Contents (Elt Ideal)) :
    val_main_v22 (F := Ideal) x0 x1
      = meanSum (F := Ideal) reducesTo_S8192_S_d0 h_S_ (nearest x0 x1) (nearest x1 x0) := by
  unfold val_main_v22 val_main_v21 val_main_v20 val_main_v18 val_main_v17 meanSum
  rw [rowmin_eq, colmin_eq]
  rfl

end Cert.ReferenceIdeal.RefValue

end
-- ==== Proof.lean ====
/-
  The averaged nearest-neighbour (Hausdorff) loss of two point sets: a tiled kernel against the reference that forms the
  whole distance matrix.

  Both programs take each point's nearest-neighbour distance to the other set, by the Gram identity
  ‖u − v‖² = ‖u‖² + ‖v‖² − 2⟨u, v⟩ clamped at zero and rooted, and add the two directed means. The kernel runs one
  tiled call per direction, keeping a running minimum over tiles of 1024 points in a scratch; the reference takes row
  and column minima of one 8192 x 8192 matrix. On the extended reals a minimum does not depend on how it is grouped,
  and the distance is symmetric in its two points (addition and multiplication commute), so the two results agree for
  every input: the precondition is not used.

  The three frames: each kernel program is two calls and a host stretch, run item by item with the buffers' contents
  named at every boundary; the reference is host operations only. The ideal pass rewrote nothing, so the kernel's
  idealization is its own text read on the extended reals.
-/
import proofs.«169933_j52072183497482_1_alg».proof.Defs
import proofs.«169933_j52072183497482_1_alg».proof.Proof.Gen.Kernel
import proofs.«169933_j52072183497482_1_alg».proof.Proof.Gen.KernelIdeal
import proofs.«169933_j52072183497482_1_alg».proof.Proof.Gen.ReferenceIdeal
import proofs.«169933_j52072183497482_1_alg».proof.Proof.Gen.Pre_finite_inputs
import proofs.«169933_j52072183497482_1_alg».proof.Proof.Gen.ReferenceIdeal.Run
import proofs.«169933_j52072183497482_1_alg».proof.Proof.Gen.ReferenceIdeal.Read
import proofs.«169933_j52072183497482_1_alg».proof.Proof.KRun
import proofs.«169933_j52072183497482_1_alg».proof.Proof.KiFinal
import proofs.«169933_j52072183497482_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Nn.frame m ρ
theorem frame_ki : Cert.frame_KernelIdeal := fun m ρ _ => Cert.KernelIdeal.Nn.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the two point sets, both programs end at the mean sum of the two vectors of
    nearest-neighbour distances. -/
theorem algebraic : Cert.algebraic_KernelIdeal_ReferenceIdeal := by
  intro m ρ m' ρ' _ hagree
  refine ⟨_, Cert.KernelIdeal.Nn.value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
